-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4096x17x3 : Shape := ⟨4, ![128, 4096, 17, 3]⟩
abbrev S_ : Shape := ⟨0, ![]⟩

class Facts : Prop where
  bcast_S_S128x4096x17x3 : S_.BroadcastsInDim S128x4096x17x3 (![] : Fin 0 → Fin S128x4096x17x3.rank)
  reducesTo_S128x4096x17x3_S_d0_1_2_3 : S128x4096x17x3.ReducesTo [0, 1, 2, 3] S_
  h_S_ : 0 < S_.numel

variable [Facts]

def fn {F : FTy → Type} [FloatOps F] (main_arg0 : FVec F S128x4096x17x3 .f32) : IVec S_ 1 :=
  let main_v0 : FVec F S128x4096x17x3 .f32 := Host.absf main_arg0
  let main_cst : FVec F S_ .f32 := constant S_ .f32 0x7F800000#32
  let main_v1 : FVec F S128x4096x17x3 .f32 := broadcastInDim S128x4096x17x3 ![] bcast_S_S128x4096x17x3 main_cst
  let main_v2 : IVec S128x4096x17x3 1 := cmpf .olt main_v0 main_v1
  let main_c : IVec S_ 1 := constantI S_ 1 1#1
  let main_v3 : IVec S_ 1 := (fun x v => Host.reduce IntOp.andi x v reducesTo_S128x4096x17x3_S_d0_1_2_3 h_S_) main_v2 main_c
  main_v3
-- ==== Kernel.lean ====
abbrev S128x4096x17x3 : Shape := ⟨4, ![128, 4096, 17, 3]⟩
abbrev S128x4096x51 : Shape := ⟨3, ![128, 4096, 51]⟩
abbrev S128x4096x16 : Shape := ⟨3, ![128, 4096, 16]⟩
abbrev S128x4096x48 : Shape := ⟨3, ![128, 4096, 48]⟩
abbrev S8x512x51 : Shape := ⟨3, ![8, 512, 51]⟩
abbrev S8x512x16 : Shape := ⟨3, ![8, 512, 16]⟩
abbrev S8x512x48 : Shape := ⟨3, ![8, 512, 48]⟩
abbrev S8x512x3 : Shape := ⟨3, ![8, 512, 3]⟩
abbrev S8x512 : Shape := ⟨2, ![8, 512]⟩
abbrev S8x512x1 : Shape := ⟨3, ![8, 512, 1]⟩
abbrev S128x4096x16x1 : Shape := ⟨4, ![128, 4096, 16, 1]⟩
abbrev S128x4096x16x3 : Shape := ⟨4, ![128, 4096, 16, 3]⟩

abbrev nBuf : Space → Nat
  | .hbm => 6
  | .vmem => 6
  | .smem => 0
  | _ => 0

abbrev bufTy : (tb : Table) → Fin (tcTables nBuf tb) → BufTy
  | .hbm, ⟨0, _⟩ => ⟨S128x4096x17x3, .f32⟩
  | .hbm, ⟨1, _⟩ => ⟨S128x4096x51, .f32⟩
  | .hbm, ⟨2, _⟩ => ⟨S128x4096x16, .f32⟩
  | .hbm, ⟨3, _⟩ => ⟨S128x4096x48, .f32⟩
  | .hbm, ⟨4, _⟩ => ⟨S128x4096x16x1, .f32⟩
  | .hbm, ⟨5, _⟩ => ⟨S128x4096x16x3, .f32⟩
  | .local _ .vmem, ⟨0, _⟩ => ⟨S8x512x51, .f32⟩
  | .local _ .vmem, ⟨1, _⟩ => ⟨S8x512x51, .f32⟩
  | .local _ .vmem, ⟨2, _⟩ => ⟨S8x512x16, .f32⟩
  | .local _ .vmem, ⟨3, _⟩ => ⟨S8x512x16, .f32⟩
  | .local _ .vmem, ⟨4, _⟩ => ⟨S8x512x48, .f32⟩
  | .local _ .vmem, ⟨5, _⟩ => ⟨S8x512x48, .f32⟩
  | _, _ => ⟨S128x4096x17x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x512x51 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S128x4096x17x3_S128x4096x51 : S128x4096x17x3.ShapeCasts S128x4096x51
  inb_S8x512x51_S8x512x3_0_0_0 : ∀ a, (![0, 0, 0] : Fin 3 → Nat) a + S8x512x3.size a ≤ S8x512x51.size a
  h_S8x512x3 : 0 < S8x512x3.numel
  shapeCasts_S8x512x3_S8x512x3 : S8x512x3.ShapeCasts S8x512x3
  inb_S8x512x51_S8x512x3_0_0_3 : ∀ a, (![0, 0, 3] : Fin 3 → Nat) a + S8x512x3.size a ≤ S8x512x51.size a
  inb_S8x512x51_S8x512x3_0_0_6 : ∀ a, (![0, 0, 6] : Fin 3 → Nat) a + S8x512x3.size a ≤ S8x512x51.size a
  inb_S8x512x51_S8x512x3_0_0_9 : ∀ a, (![0, 0, 9] : Fin 3 → Nat) a + S8x512x3.size a ≤ S8x512x51.size a
  inb_S8x512x51_S8x512x3_0_0_12 : ∀ a, (![0, 0, 12] : Fin 3 → Nat) a + S8x512x3.size a ≤ S8x512x51.size a
  inb_S8x512x51_S8x512x3_0_0_15 : ∀ a, (![0, 0, 15] : Fin 3 → Nat) a + S8x512x3.size a ≤ S8x512x51.size a
  inb_S8x512x51_S8x512x3_0_0_18 : ∀ a, (![0, 0, 18] : Fin 3 → Nat) a + S8x512x3.size a ≤ S8x512x51.size a
  inb_S8x512x51_S8x512x3_0_0_21 : ∀ a, (![0, 0, 21] : Fin 3 → Nat) a + S8x512x3.size a ≤ S8x512x51.size a
  inb_S8x512x51_S8x512x3_0_0_24 : ∀ a, (![0, 0, 24] : Fin 3 → Nat) a + S8x512x3.size a ≤ S8x512x51.size a
  inb_S8x512x51_S8x512x3_0_0_27 : ∀ a, (![0, 0, 27] : Fin 3 → Nat) a + S8x512x3.size a ≤ S8x512x51.size a
  inb_S8x512x51_S8x512x3_0_0_30 : ∀ a, (![0, 0, 30] : Fin 3 → Nat) a + S8x512x3.size a ≤ S8x512x51.size a
  inb_S8x512x51_S8x512x3_0_0_33 : ∀ a, (![0, 0, 33] : Fin 3 → Nat) a + S8x512x3.size a ≤ S8x512x51.size a
  inb_S8x512x51_S8x512x3_0_0_36 : ∀ a, (![0, 0, 36] : Fin 3 → Nat) a + S8x512x3.size a ≤ S8x512x51.size a
  inb_S8x512x51_S8x512x3_0_0_39 : ∀ a, (![0, 0, 39] : Fin 3 → Nat) a + S8x512x3.size a ≤ S8x512x51.size a
  inb_S8x512x51_S8x512x3_0_0_42 : ∀ a, (![0, 0, 42] : Fin 3 → Nat) a + S8x512x3.size a ≤ S8x512x51.size a
  inb_S8x512x51_S8x512x3_0_0_45 : ∀ a, (![0, 0, 45] : Fin 3 → Nat) a + S8x512x3.size a ≤ S8x512x51.size a
  inb_S8x512x51_S8x512x3_0_0_48 : ∀ a, (![0, 0, 48] : Fin 3 → Nat) a + S8x512x3.size a ≤ S8x512x51.size a
  reduces_S8x512x3_S8x512 : S8x512x3.Reduces [2] S8x512
  shapeCasts_S8x512_S8x512x1 : S8x512.ShapeCasts S8x512x1
  broadcasts_S8x512x1_S8x512x3 : S8x512x1.Broadcasts S8x512x3
  inb_S8x512x16_S8x512x1_0_0_0 : ∀ a, (![0, 0, 0] : Fin 3 → Nat) a + S8x512x1.size a ≤ S8x512x16.size a
  h_S8x512x1 : 0 < S8x512x1.numel
  inb_S8x512x48_S8x512x3_0_0_0 : ∀ a, (![0, 0, 0] : Fin 3 → Nat) a + S8x512x3.size a ≤ S8x512x48.size a
  inb_S8x512x16_S8x512x1_0_0_1 : ∀ a, (![0, 0, 1] : Fin 3 → Nat) a + S8x512x1.size a ≤ S8x512x16.size a
  inb_S8x512x48_S8x512x3_0_0_3 : ∀ a, (![0, 0, 3] : Fin 3 → Nat) a + S8x512x3.size a ≤ S8x512x48.size a
  inb_S8x512x16_S8x512x1_0_0_2 : ∀ a, (![0, 0, 2] : Fin 3 → Nat) a + S8x512x1.size a ≤ S8x512x16.size a
  inb_S8x512x48_S8x512x3_0_0_6 : ∀ a, (![0, 0, 6] : Fin 3 → Nat) a + S8x512x3.size a ≤ S8x512x48.size a
  inb_S8x512x16_S8x512x1_0_0_3 : ∀ a, (![0, 0, 3] : Fin 3 → Nat) a + S8x512x1.size a ≤ S8x512x16.size a
  inb_S8x512x48_S8x512x3_0_0_9 : ∀ a, (![0, 0, 9] : Fin 3 → Nat) a + S8x512x3.size a ≤ S8x512x48.size a
  inb_S8x512x16_S8x512x1_0_0_4 : ∀ a, (![0, 0, 4] : Fin 3 → Nat) a + S8x512x1.size a ≤ S8x512x16.size a
  inb_S8x512x48_S8x512x3_0_0_12 : ∀ a, (![0, 0, 12] : Fin 3 → Nat) a + S8x512x3.size a ≤ S8x512x48.size a
  inb_S8x512x16_S8x512x1_0_0_5 : ∀ a, (![0, 0, 5] : Fin 3 → Nat) a + S8x512x1.size a ≤ S8x512x16.size a
  inb_S8x512x48_S8x512x3_0_0_15 : ∀ a, (![0, 0, 15] : Fin 3 → Nat) a + S8x512x3.size a ≤ S8x512x48.size a
  inb_S8x512x16_S8x512x1_0_0_6 : ∀ a, (![0, 0, 6] : Fin 3 → Nat) a + S8x512x1.size a ≤ S8x512x16.size a
  inb_S8x512x48_S8x512x3_0_0_18 : ∀ a, (![0, 0, 18] : Fin 3 → Nat) a + S8x512x3.size a ≤ S8x512x48.size a
  inb_S8x512x16_S8x512x1_0_0_7 : ∀ a, (![0, 0, 7] : Fin 3 → Nat) a + S8x512x1.size a ≤ S8x512x16.size a
  inb_S8x512x48_S8x512x3_0_0_21 : ∀ a, (![0, 0, 21] : Fin 3 → Nat) a + S8x512x3.size a ≤ S8x512x48.size a
  inb_S8x512x16_S8x512x1_0_0_8 : ∀ a, (![0, 0, 8] : Fin 3 → Nat) a + S8x512x1.size a ≤ S8x512x16.size a
  inb_S8x512x48_S8x512x3_0_0_24 : ∀ a, (![0, 0, 24] : Fin 3 → Nat) a + S8x512x3.size a ≤ S8x512x48.size a
  inb_S8x512x16_S8x512x1_0_0_9 : ∀ a, (![0, 0, 9] : Fin 3 → Nat) a + S8x512x1.size a ≤ S8x512x16.size a
  inb_S8x512x48_S8x512x3_0_0_27 : ∀ a, (![0, 0, 27] : Fin 3 → Nat) a + S8x512x3.size a ≤ S8x512x48.size a
  inb_S8x512x16_S8x512x1_0_0_10 : ∀ a, (![0, 0, 10] : Fin 3 → Nat) a + S8x512x1.size a ≤ S8x512x16.size a
  inb_S8x512x48_S8x512x3_0_0_30 : ∀ a, (![0, 0, 30] : Fin 3 → Nat) a + S8x512x3.size a ≤ S8x512x48.size a
  inb_S8x512x16_S8x512x1_0_0_11 : ∀ a, (![0, 0, 11] : Fin 3 → Nat) a + S8x512x1.size a ≤ S8x512x16.size a
  inb_S8x512x48_S8x512x3_0_0_33 : ∀ a, (![0, 0, 33] : Fin 3 → Nat) a + S8x512x3.size a ≤ S8x512x48.size a
  inb_S8x512x16_S8x512x1_0_0_12 : ∀ a, (![0, 0, 12] : Fin 3 → Nat) a + S8x512x1.size a ≤ S8x512x16.size a
  inb_S8x512x48_S8x512x3_0_0_36 : ∀ a, (![0, 0, 36] : Fin 3 → Nat) a + S8x512x3.size a ≤ S8x512x48.size a
  inb_S8x512x16_S8x512x1_0_0_13 : ∀ a, (![0, 0, 13] : Fin 3 → Nat) a + S8x512x1.size a ≤ S8x512x16.size a
  inb_S8x512x48_S8x512x3_0_0_39 : ∀ a, (![0, 0, 39] : Fin 3 → Nat) a + S8x512x3.size a ≤ S8x512x48.size a
  inb_S8x512x16_S8x512x1_0_0_14 : ∀ a, (![0, 0, 14] : Fin 3 → Nat) a + S8x512x1.size a ≤ S8x512x16.size a
  inb_S8x512x48_S8x512x3_0_0_42 : ∀ a, (![0, 0, 42] : Fin 3 → Nat) a + S8x512x3.size a ≤ S8x512x48.size a
  inb_S8x512x16_S8x512x1_0_0_15 : ∀ a, (![0, 0, 15] : Fin 3 → Nat) a + S8x512x1.size a ≤ S8x512x16.size a
  inb_S8x512x48_S8x512x3_0_0_45 : ∀ a, (![0, 0, 45] : Fin 3 → Nat) a + S8x512x3.size a ≤ S8x512x48.size a
  shapeCasts_S128x4096x16_S128x4096x16x1 : S128x4096x16.ShapeCasts S128x4096x16x1
  shapeCasts_S128x4096x48_S128x4096x16x3 : S128x4096x48.ShapeCasts S128x4096x16x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x51.size a ≤ S128x4096x51.size a
  hwx0_0 : ∀ i : grid0.Coords, EltTy.bits .f32 = 32 ∨ (Rect.block (s := S128x4096x51) S8x512x51.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x16.size a ≤ S128x4096x16.size a
  hwx0_1 : ∀ i : grid0.Coords, EltTy.bits .f32 = 32 ∨ (Rect.block (s := S128x4096x16) S8x512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512x48.size a ≤ S128x4096x48.size a
  hwx0_2 : ∀ i : grid0.Coords, EltTy.bits .f32 = 32 ∨ (Rect.block (s := S128x4096x48) S8x512x48.size (cc0_transform_2 i) (hinb0_2 i)).WholeWords (EltTy.packing .f32)

variable [Facts₀]

abbrev win0_0 : Pipeline.Window sig grid0 :=
  Pipeline.Window.ofSpec (Memref.whole main_v0) S8x512x51.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S8x512x16.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S8x512x48.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x4096x17x3 : Shape := ⟨4, ![128, 4096, 17, 3]⟩
abbrev S16 : Shape := ⟨1, ![16]⟩
abbrev S128x4096x16x3 : Shape := ⟨4, ![128, 4096, 16, 3]⟩
abbrev S_ : Shape := ⟨0, ![]⟩
abbrev S16x1 : Shape := ⟨2, ![16, 1]⟩
abbrev S128x4096x16 : Shape := ⟨3, ![128, 4096, 16]⟩
abbrev S128x4096x16x1 : Shape := ⟨4, ![128, 4096, 16, 1]⟩

abbrev nBuf : Space → Nat
  | .hbm => 23
  | .vmem => 0
  | .smem => 0
  | _ => 0

abbrev bufTy : (tb : Table) → Fin (tcTables nBuf tb) → BufTy
  | .hbm, ⟨0, _⟩ => ⟨S128x4096x17x3, .f32⟩
  | .hbm, ⟨1, _⟩ => ⟨S16, .i32⟩
  | .hbm, ⟨2, _⟩ => ⟨S128x4096x16x3, .f32⟩
  | .hbm, ⟨3, _⟩ => ⟨S_, .i32⟩
  | .hbm, ⟨4, _⟩ => ⟨S16, .i32⟩
  | .hbm, ⟨5, _⟩ => ⟨S16, .i1⟩
  | .hbm, ⟨6, _⟩ => ⟨S_, .i32⟩
  | .hbm, ⟨7, _⟩ => ⟨S16, .i32⟩
  | .hbm, ⟨8, _⟩ => ⟨S16, .i32⟩
  | .hbm, ⟨9, _⟩ => ⟨S16, .i32⟩
  | .hbm, ⟨10, _⟩ => ⟨S16x1, .i32⟩
  | .hbm, ⟨11, _⟩ => ⟨S128x4096x16x3, .f32⟩
  | .hbm, ⟨12, _⟩ => ⟨S128x4096x16x3, .f32⟩
  | .hbm, ⟨13, _⟩ => ⟨S128x4096x16x3, .f32⟩
  | .hbm, ⟨14, _⟩ => ⟨S_, .f32⟩
  | .hbm, ⟨15, _⟩ => ⟨S128x4096x16, .f32⟩
  | .hbm, ⟨16, _⟩ => ⟨S128x4096x16x1, .f32⟩
  | .hbm, ⟨17, _⟩ => ⟨S128x4096x16x1, .f32⟩
  | .hbm, ⟨18, _⟩ => ⟨S_, .f32⟩
  | .hbm, ⟨19, _⟩ => ⟨S128x4096x16x1, .f32⟩
  | .hbm, ⟨20, _⟩ => ⟨S128x4096x16x1, .f32⟩
  | .hbm, ⟨21, _⟩ => ⟨S128x4096x16x3, .f32⟩
  | .hbm, ⟨22, _⟩ => ⟨S128x4096x16x3, .f32⟩
  | _, _ => ⟨S128x4096x17x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  slices_S128x4096x17x3_S128x4096x16x3_0_0_1_0 : S128x4096x17x3.Slices ![0, 0, 1, 0] S128x4096x16x3
  bcast_S_S16 : S_.BroadcastsInDim S16 (![] : Fin 0 → Fin S16.rank)
  bcast_S16_S16x1_0 : S16.BroadcastsInDim S16x1 (![0] : Fin 1 → Fin S16x1.rank)
  reducesTo_S128x4096x16x3_S128x4096x16_d3 : S128x4096x16x3.ReducesTo [3] S128x4096x16
  h_S_ : 0 < S_.numel
  bcast_S128x4096x16_S128x4096x16x1_0_1_2 : S128x4096x16.BroadcastsInDim S128x4096x16x1 (![0, 1, 2] : Fin 3 → Fin S128x4096x16x1.rank)
  bcast_S_S128x4096x16x1 : S_.BroadcastsInDim S128x4096x16x1 (![] : Fin 0 → Fin S128x4096x16x1.rank)
  bcast_S128x4096x16x1_S128x4096x16x3_0_1_2_3 : S128x4096x16x1.BroadcastsInDim S128x4096x16x3 (![0, 1, 2, 3] : Fin 4 → Fin S128x4096x16x3.rank)
  gather_S128x4096x17x3_S16x1_S128x4096x16x3_013_2_n_n_2_1_128409613_wf : GatherDims.WF S128x4096x17x3 S16x1 S128x4096x16x3 [0, 1, 3] [2] [] [2] [] 1 ![128, 4096, 1, 3]

variable [Facts₀]

def gather_S128x4096x17x3_S16x1_S128x4096x16x3_013_2_n_n_2_1_128409613 : GatherDims S128x4096x17x3 S16x1 S128x4096x16x3 where
  offsetDims := [0, 1, 3]
  collapsedSliceDims := [2]
  operandBatchingDims := []
  startIndicesBatchingDims := []
  startIndexMap := [2]
  indexVectorDim := 1
  sliceSizes := ![128, 4096, 1, 3]
  wf := gather_S128x4096x17x3_S16x1_S128x4096x16x3_013_2_n_n_2_1_128409613_wf

class Facts : Prop extends Facts₀ where

variable [Facts]
-- ==== Proof.LibColumn3.lean ====
/-
  Keepdims columns of rank three, read at an index given by coordinates.

  A reduction over the last axis of an `[a, b, d]` block that keeps the axis leaves an `[a, b, 1]` column: the `[a, b]`
  array of sums cast to the column, and the column broadcast back along the last axis when it meets the full block.
  Each lemma states what the re-laid value holds at `(i, j, c)` in terms of the original value, for indices built by
  `ix2` / `ix3`, so that it applies to a printed operation by unification. The lane sum is read on the extended reals as
  a finite sum over the last coordinate. Generic in the extents and in the element type.
-/
import Idealize.ShloMosaic.Lib.ValueLayout
import Idealize.ShloMosaic.Lib.Pipeline.Value
import Idealize.ShloMosaic.PureOps.Ideal.Laws

namespace Cert.Lib.Column3

open Idealize.ShloMosaic Idealize.ShloMosaic.ValueIdx

variable {α : Type}

/-- An `[a, b]` array cast to the column `[a, b, 1]` reads, at `(i, j, u)`, the array's entry `(i, j)`, whatever the
    unit coordinate `u`: both positions are `i · b + j` in row-major order. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, b, 1]` column broadcast to `[a, b, d]` reads, at `(i, j, c)`, the column's entry `(i, j)`: every slice along
    the last axis is the operand. -/
theorem broadcastTo_ab1_abd_apply {a b d : ℕ} (v : (⟨3, ![a, b, 1]⟩ : Shape).Idx → α)
    (h : (⟨3, ![a, b, 1]⟩ : Shape).Broadcasts ⟨3, ![a, b, d]⟩) (i : Fin a) (j : Fin b) (c : Fin d) :
    broadcastTo ⟨3, ![a, b, d]⟩ v h (ix3 i j c) = v (ix3 i j (0 : Fin 1)) := by
  refine broadcastTo_apply v h (ix3 i j c) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The sum along the last axis of an `[a, b, d]` block (a float `multi_reduction <add>` over axis 2 from the neutral
    accumulator), read on the extended reals at `(i, j)`, is the finite sum of the `d` entries `(i, j, ·)`. -/
theorem laneSum_apply {φ : FTy} {a b d : ℕ} (src : FVec Ideal ⟨3, ![a, b, d]⟩ φ) (acc : BitVec φ.bits)
    (h : (⟨3, ![a, b, d]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin d, src (ix3 i j k) :=
  (Ideal.multiReduction_add_single src acc h hφ hacc (ix2 i j)).trans
    (Finset.sum_congr rfl fun k _ => congrArg src (funext fun c => Fin.ext (by
      match c with
      | ⟨0, _⟩ => rfl
      | ⟨1, _⟩ => rfl
      | ⟨2, _⟩ => rfl)))

end Cert.Lib.Column3
-- ==== Proof.BonePay.lean ====
/-
  The body's arithmetic for one bone, as two functions of the parent's and the child's loaded joint slices.

  For every bone the body subtracts the parent's `[8, 512, 3]` slice from the child's, squares, sums the three
  coordinates, takes the root (the length column `[8, 512, 1]`), floors the length and divides the difference by it
  (the direction `[8, 512, 3]`). The sixteen bones differ only in which two slices they read, so every stored value
  of the body is one of these two functions of two slices; and at the ideal instance each reads, at a position
  `(b, r)` of the block, as the textbook formula of the six numbers involved.
-/
import proofs.«155686_j32014686224789_1_alg».proof.Proof.Gen.KernelIdeal.Skeleton
import proofs.«155686_j32014686224789_1_alg».proof.Proof.LibColumn3
import Idealize.ShloMosaic.Lib.ValueIdx

noncomputable section

namespace Cert.KernelIdeal.Bone

open Idealize.ShloMosaic Idealize.ShloMosaic.ValueIdx Cert.KernelIdeal Cert.KernelIdeal.Gen

variable {F : FTy → Type} [FloatOps F]

/-- A loaded joint slice as the body names it: a cast between equal shapes. -/
def joint (v : Vec F S8x512x3 .f32) : FVec F S8x512x3 .f32 := shapeCast S8x512x3 v shapeCasts_S8x512x3_S8x512x3

/-- The length column of the bone from parent slice `p` to child slice `c`. -/
def lenPay (p c : FVec F S8x512x3 .f32) : FVec F S8x512x1 .f32 :=
  sqrt (shapeCast S8x512x1 (multiReduction .add [2] S8x512 (mulf (subf c p) (subf c p)) 0x00000000#32
    reduces_S8x512x3_S8x512 (.inl rfl) rfl) shapeCasts_S8x512_S8x512x1)

/-- The direction block of the bone from parent slice `p` to child slice `c`. -/
def dirPay (p c : FVec F S8x512x3 .f32) : FVec F S8x512x3 .f32 :=
  divf (subf c p) (broadcastTo S8x512x3 (maximumf (lenPay p c) (broadcast S8x512x1 (Scalar.ofBits .f32 0x2B8CBCCC#32)))
    broadcasts_S8x512x1_S8x512x3)

/-! ## Every stored value of the body is one of the two -/

theorem pay1_eq (v : Vec F S8x512x3 .f32) : k0_pay1 v = joint v := rfl
theorem pay2_eq (v : Vec F S8x512x3 .f32) : k0_pay2 v = joint v := rfl
theorem pay3_eq (v : Vec F S8x512x3 .f32) : k0_pay3 v = joint v := rfl
theorem pay4_eq (v : Vec F S8x512x3 .f32) : k0_pay4 v = joint v := rfl
theorem pay5_eq (v : Vec F S8x512x3 .f32) : k0_pay5 v = joint v := rfl
theorem pay6_eq (v : Vec F S8x512x3 .f32) : k0_pay6 v = joint v := rfl
theorem pay7_eq (v : Vec F S8x512x3 .f32) : k0_pay7 v = joint v := rfl
theorem pay8_eq (v : Vec F S8x512x3 .f32) : k0_pay8 v = joint v := rfl
theorem pay9_eq (v : Vec F S8x512x3 .f32) : k0_pay9 v = joint v := rfl
theorem pay10_eq (v : Vec F S8x512x3 .f32) : k0_pay10 v = joint v := rfl
theorem pay11_eq (v : Vec F S8x512x3 .f32) : k0_pay11 v = joint v := rfl
theorem pay12_eq (v : Vec F S8x512x3 .f32) : k0_pay12 v = joint v := rfl
theorem pay13_eq (v : Vec F S8x512x3 .f32) : k0_pay13 v = joint v := rfl
theorem pay14_eq (v : Vec F S8x512x3 .f32) : k0_pay14 v = joint v := rfl
theorem pay15_eq (v : Vec F S8x512x3 .f32) : k0_pay15 v = joint v := rfl
theorem pay16_eq (v : Vec F S8x512x3 .f32) : k0_pay16 v = joint v := rfl
theorem pay17_eq (v : Vec F S8x512x3 .f32) : k0_pay17 v = joint v := rfl

theorem len0_eq (p c : FVec F S8x512x3 .f32) : k0_pay19 p c = lenPay p c := rfl
theorem len1_eq (p c : FVec F S8x512x3 .f32) : k0_pay22 p c = lenPay p c := rfl
theorem len2_eq (p c : FVec F S8x512x3 .f32) : k0_pay25 p c = lenPay p c := rfl
theorem len3_eq (p c : FVec F S8x512x3 .f32) : k0_pay28 p c = lenPay p c := rfl
theorem len4_eq (p c : FVec F S8x512x3 .f32) : k0_pay31 p c = lenPay p c := rfl
theorem len5_eq (p c : FVec F S8x512x3 .f32) : k0_pay35 p c = lenPay p c := rfl
theorem len6_eq (p c : FVec F S8x512x3 .f32) : k0_pay38 p c = lenPay p c := rfl
theorem len7_eq (p c : FVec F S8x512x3 .f32) : k0_pay41 p c = lenPay p c := rfl
theorem len8_eq (p c : FVec F S8x512x3 .f32) : k0_pay44 p c = lenPay p c := rfl
theorem len9_eq (p c : FVec F S8x512x3 .f32) : k0_pay47 p c = lenPay p c := rfl
theorem len10_eq (p c : FVec F S8x512x3 .f32) : k0_pay51 (k0_pay50 p c) = lenPay p c := rfl
theorem len11_eq (p c : FVec F S8x512x3 .f32) : k0_pay54 p c = lenPay p c := rfl
theorem len12_eq (p c : FVec F S8x512x3 .f32) : k0_pay57 p c = lenPay p c := rfl
theorem len13_eq (p c : FVec F S8x512x3 .f32) : k0_pay60 p c = lenPay p c := rfl
theorem len14_eq (p c : FVec F S8x512x3 .f32) : k0_pay63 p c = lenPay p c := rfl
theorem len15_eq (p c : FVec F S8x512x3 .f32) : k0_pay66 p c = lenPay p c := rfl

theorem dir0_eq (p c : FVec F S8x512x3 .f32) : k0_pay20 p c = dirPay p c := rfl
theorem dir1_eq (p c : FVec F S8x512x3 .f32) : k0_pay23 p c = dirPay p c := rfl
theorem dir2_eq (p c : FVec F S8x512x3 .f32) : k0_pay26 p c = dirPay p c := rfl
theorem dir3_eq (p c : FVec F S8x512x3 .f32) : k0_pay29 p c = dirPay p c := rfl
theorem dir4_eq (p c : FVec F S8x512x3 .f32) : k0_pay33 (k0_pay30 p c) (k0_pay32 p c) = dirPay p c := rfl
theorem dir5_eq (p c : FVec F S8x512x3 .f32) : k0_pay36 p c = dirPay p c := rfl
theorem dir6_eq (p c : FVec F S8x512x3 .f32) : k0_pay39 p c = dirPay p c := rfl
theorem dir7_eq (p c : FVec F S8x512x3 .f32) : k0_pay42 (k0_pay40 p c) (k0_pay41 p c) = dirPay p c := rfl
theorem dir8_eq (p c : FVec F S8x512x3 .f32) : k0_pay45 p c = dirPay p c := rfl
theorem dir9_eq (p c : FVec F S8x512x3 .f32) : k0_pay48 p c = dirPay p c := rfl
theorem dir10_eq (p c : FVec F S8x512x3 .f32) : k0_pay52 (k0_pay49 p c) (k0_pay50 p c) = dirPay p c := rfl
theorem dir11_eq (p c : FVec F S8x512x3 .f32) : k0_pay55 p c = dirPay p c := rfl
theorem dir12_eq (p c : FVec F S8x512x3 .f32) : k0_pay58 p c = dirPay p c := rfl
theorem dir13_eq (p c : FVec F S8x512x3 .f32) : k0_pay61 p c = dirPay p c := rfl
theorem dir14_eq (p c : FVec F S8x512x3 .f32) : k0_pay64 p c = dirPay p c := rfl
theorem dir15_eq (p c : FVec F S8x512x3 .f32) : k0_pay67 p c = dirPay p c := rfl

/-! ## The two functions at a position of the block, on the extended reals -/

/-- The cast between equal shapes changes nothing. -/
theorem joint_eq (v : Vec Ideal S8x512x3 .f32) : joint v = v := shapeCast_self v _

/-- The squared length of the difference at `(b, r)`: the sum over the three coordinates. -/
def sumSq (p c : FVec Ideal S8x512x3 .f32) (b : Fin 8) (r : Fin 512) : EReal :=
  ∑ d : Fin 3, (c (ix3 b r d) - p (ix3 b r d)) * (c (ix3 b r d) - p (ix3 b r d))

theorem lenPay_apply (p c : FVec Ideal S8x512x3 .f32) (b : Fin 8) (r : Fin 512) (u : Fin 1) :
    lenPay p c (ix3 b r u) = Ideal.sqrt (sumSq p c b r) := by
  unfold lenPay
  show Ideal.sqrt (shapeCast S8x512x1 _ shapeCasts_S8x512_S8x512x1 (ix3 b r u)) = _
  refine congrArg Ideal.sqrt ((Cert.Lib.Column3.shapeCast_ab_ab1_apply _ _ b r u).trans ?_)
  exact Cert.Lib.Column3.laneSum_apply (mulf (subf c p) (subf c p)) _ _ _ _ b r

theorem dirPay_apply (p c : FVec Ideal S8x512x3 .f32) (b : Fin 8) (r : Fin 512) (d : Fin 3) :
    dirPay p c (ix3 b r d)
      = Ideal.div (c (ix3 b r d) - p (ix3 b r d)) (max (Ideal.sqrt (sumSq p c b r)) (Ideal.ofBits .f32 0x2B8CBCCC#32)) := by
  unfold dirPay
  show Ideal.div (c (ix3 b r d) - p (ix3 b r d)) (broadcastTo S8x512x3 _ broadcasts_S8x512x1_S8x512x3 (ix3 b r d)) = _
  refine congrArg (Ideal.div _) ((Cert.Lib.Column3.broadcastTo_ab1_abd_apply _ _ b r d).trans ?_)
  show max (lenPay p c (ix3 b r (0 : Fin 1))) _ = _
  rw [lenPay_apply]
  rfl

end Cert.KernelIdeal.Bone

end
-- ==== Proof.Spec.lean ====
/-
  What both programs compute, as one function of the pose array.

  A pose is an array x[b, n, j, d] of 17 joints in 3 coordinates. Bone k (k = 0 … 15) joins joint k+1 to its parent joint
  in the skeleton's tree. Its vector is v[b, n, k, d] = x[b, n, k+1, d] − x[b, n, parent k, d], its length the square
  root of the sum of the three squared coordinates, and its direction the vector divided by the larger of the length and
  a small positive constant. Everything is read on the extended reals, where the square root, the maximum and the
  quotient are the exact ones.
-/
import Idealize.ShloMosaic.PureOps.Ideal
import Idealize.ShloMosaic.Lib.ValueIdx

noncomputable section

namespace Cert.Bones

open Idealize.ShloMosaic Idealize.ShloMosaic.ValueIdx

/-- The pose array: batch, frame, joint, coordinate. -/
abbrev SPose : Shape := ⟨4, ![128, 4096, 17, 3]⟩
/-- One length per bone, kept as a column. -/
abbrev SLen : Shape := ⟨4, ![128, 4096, 16, 1]⟩
/-- One direction vector per bone. -/
abbrev SDir : Shape := ⟨4, ![128, 4096, 16, 3]⟩

/-- The parent joint of bone `k`'s child joint, in the 17-joint tree. -/
def parent : Fin 16 → Fin 17 := ![0, 1, 2, 0, 4, 5, 0, 7, 8, 9, 8, 11, 12, 8, 14, 15]

/-- Bone `k`'s child joint is joint `k + 1`. -/
def child (k : Fin 16) : Fin 17 := k.succ

/-- The floor under the length in the direction's quotient: the binary32 value nearest 10⁻¹². Both programs
    carry the same word, so its value is never needed. -/
def floorLen : EReal := Ideal.ofBits .f32 0x2B8CBCCC#32

/-- Coordinate `d` of bone `k`'s vector: child joint minus parent joint. -/
def vec (x : FVec Ideal SPose .f32) (b : Fin 128) (n : Fin 4096) (k : Fin 16) (d : Fin 3) : EReal :=
  x (ix4 b n (child k) d) - x (ix4 b n (parent k) d)

/-- Bone `k`'s length: the root of the sum of its three squared coordinates. -/
def len (x : FVec Ideal SPose .f32) (b : Fin 128) (n : Fin 4096) (k : Fin 16) : EReal :=
  Ideal.sqrt (∑ d : Fin 3, vec x b n k d * vec x b n k d)

/-- Coordinate `d` of bone `k`'s direction: the vector over the floored length. -/
def dir (x : FVec Ideal SPose .f32) (b : Fin 128) (n : Fin 4096) (k : Fin 16) (d : Fin 3) : EReal :=
  Ideal.div (vec x b n k d) (max (len x b n k) floorLen)

/-- The array of bone lengths. -/
def boneLen (x : FVec Ideal SPose .f32) : FVec Ideal SLen .f32 := fun j => len x (j 0) (j 1) (j 2)

/-- The array of bone directions. -/
def boneDir (x : FVec Ideal SPose .f32) : FVec Ideal SDir .f32 := fun j => dir x (j 0) (j 1) (j 2) (j 3)

theorem boneLen_ix4 (x : FVec Ideal SPose .f32) (b : Fin 128) (n : Fin 4096) (k : Fin 16) (u : Fin 1) :
    boneLen x (ix4 b n k u) = len x b n k := rfl

theorem boneDir_ix4 (x : FVec Ideal SPose .f32) (b : Fin 128) (n : Fin 4096) (k : Fin 16) (d : Fin 3) :
    boneDir x (ix4 b n k d) = dir x b n k d := rfl

end Cert.Bones

end
-- ==== Proof.BoneBlock.lean ====
/-
  What the body leaves in its two output blocks, as functions of the input block.

  The input block is `[8, 512, 51]`: joint `j`'s coordinate `d` sits in lane `3 j + d`. The body writes the length block
  `[8, 512, 16]` one lane at a time (bone `k` in lane `k`) and the direction block `[8, 512, 48]` three lanes at a time
  (bone `k`'s coordinate `d` in lane `3 k + d`). Each of the sixteen stores into either block is the matching lanes of
  ONE function of the block index, and the stores tile the block, so the block after the body is that function.
-/
import proofs.«155686_j32014686224789_1_alg».proof.Proof.Gen.KernelIdeal.Frame
import proofs.«155686_j32014686224789_1_alg».proof.Proof.BonePay
import proofs.«155686_j32014686224789_1_alg».proof.Proof.Spec

noncomputable section

namespace Cert.KernelIdeal.Bone

open Idealize.ShloMosaic Idealize.ShloMosaic.ValueIdx Cert.KernelIdeal Cert.KernelIdeal.Gen Cert.Bones

/-- The lane of joint `j`'s coordinate `d` in the flattened feature axis. -/
def lane (j : Fin 17) (d : Fin 3) : Fin 51 := ⟨3 * j.val + d.val, by omega⟩

/-- Bone `k`'s vector at row `(a, b)` of an array of rows of 51 lanes (the block, or the whole flattened pose). -/
def rowVec {A B : ℕ} (X : (⟨3, ![A, B, 51]⟩ : Shape).Idx → EReal) (a : Fin A) (b : Fin B) (k : Fin 16) (d : Fin 3) : EReal :=
  X (ix3 a b (lane (child k) d)) - X (ix3 a b (lane (parent k) d))

/-- Its length. -/
def rowLen {A B : ℕ} (X : (⟨3, ![A, B, 51]⟩ : Shape).Idx → EReal) (a : Fin A) (b : Fin B) (k : Fin 16) : EReal :=
  Ideal.sqrt (∑ d : Fin 3, rowVec X a b k d * rowVec X a b k d)

/-- Its direction. -/
def rowDir {A B : ℕ} (X : (⟨3, ![A, B, 51]⟩ : Shape).Idx → EReal) (a : Fin A) (b : Fin B) (k : Fin 16) (d : Fin 3) : EReal :=
  Ideal.div (rowVec X a b k d) (max (rowLen X a b k) floorLen)

/-- The block's rows. -/
abbrev blkVec (x0 : Vec Ideal S8x512x51 .f32) (b : Fin 8) (r : Fin 512) (k : Fin 16) (d : Fin 3) : EReal := rowVec x0 b r k d
abbrev blkLen (x0 : Vec Ideal S8x512x51 .f32) (b : Fin 8) (r : Fin 512) (k : Fin 16) : EReal := rowLen x0 b r k
abbrev blkDir (x0 : Vec Ideal S8x512x51 .f32) (b : Fin 8) (r : Fin 512) (k : Fin 16) (d : Fin 3) : EReal := rowDir x0 b r k d

/-- The length block: lane `k` holds bone `k`'s length. -/
def GLen (x0 : Vec Ideal S8x512x51 .f32) : Vec Ideal S8x512x16 .f32 := fun y => blkLen x0 (y 0) (y 1) (y 2)

/-- The bone of a lane of the direction block. -/
def boneOf (l : Fin 48) : Fin 16 := ⟨l.val / 3, by have := l.isLt; omega⟩
/-- The coordinate of a lane of the direction block. -/
def coordOf (l : Fin 48) : Fin 3 := ⟨l.val % 3, Nat.mod_lt _ (by decide)⟩

/-- The direction block: lane `3 k + d` holds bone `k`'s coordinate `d`. -/
def GDir (x0 : Vec Ideal S8x512x51 .f32) : Vec Ideal S8x512x48 .f32 :=
  fun y => blkDir x0 (y 0) (y 1) (boneOf (y 2)) (coordOf (y 2))

/-- A three-lane slice of the input block starting at lane `o`, read at `(b, r, d)`, is lane `o + d`. -/
theorem ld_slice (x0 : Vec Ideal S8x512x51 .f32) (o : ℕ)
    (inb : ∀ a, (![0, 0, o] : Fin 3 → ℕ) a + S8x512x3.size a ≤ S8x512x51.size a) (ho : o + 3 ≤ 51)
    (b : Fin 8) (r : Fin 512) (d : Fin 3) :
    View.ld x0 (Rect.unit (s := S8x512x51) ![0, 0, o] S8x512x3.size inb) (ix3 b r d)
      = x0 (ix3 b r ⟨o + d.val, by omega⟩) := by
  show x0 _ = x0 _
  refine congrArg x0 (funext fun a => Fin.ext ?_)
  match a with
  | ⟨0, _⟩ => show 0 + 1 * b.val = b.val; omega
  | ⟨1, _⟩ => show 0 + 1 * r.val = r.val; omega
  | ⟨2, _⟩ => show o + 1 * d.val = o + d.val; omega

/-- The store of bone `k`'s length column is lane `k` of the length block's function. -/
theorem len_piece (x0 : Vec Ideal S8x512x51 .f32) (k : Fin 16) (op oc ko : ℕ)
    (hop : op = 3 * (parent k).val) (hoc : oc = 3 * (child k).val) (hko : ko = k.val)
    (inbp : ∀ a, (![0, 0, op] : Fin 3 → ℕ) a + S8x512x3.size a ≤ S8x512x51.size a)
    (inbc : ∀ a, (![0, 0, oc] : Fin 3 → ℕ) a + S8x512x3.size a ≤ S8x512x51.size a)
    (inbo : ∀ a, (![0, 0, ko] : Fin 3 → ℕ) a + S8x512x1.size a ≤ S8x512x16.size a)
    (x : S8x512x1.Idx) :
    lenPay (joint (View.ld x0 (Rect.unit (s := S8x512x51) ![0, 0, op] S8x512x3.size inbp)))
        (joint (View.ld x0 (Rect.unit (s := S8x512x51) ![0, 0, oc] S8x512x3.size inbc))) x
      = GLen x0 ((Rect.unit (s := S8x512x16) ![0, 0, ko] S8x512x1.size inbo).emb x) := by
  obtain ⟨b, r, u, rfl⟩ : ∃ (b : Fin 8) (r : Fin 512) (u : Fin 1), x = ix3 b r u := ⟨x 0, x 1, x 2, eq_ix3 x⟩
  have hu : u.val = 0 := by omega
  have hpk := (parent k).isLt
  have hck := (child k).isLt
  have he : (Rect.unit (s := S8x512x16) ![0, 0, ko] S8x512x1.size inbo).emb (ix3 b r u) = ix3 b r k := by
    funext a; apply Fin.ext
    match a with
    | ⟨0, _⟩ => show 0 + 1 * b.val = b.val; omega
    | ⟨1, _⟩ => show 0 + 1 * r.val = r.val; omega
    | ⟨2, _⟩ => show ko + 1 * u.val = k.val; omega
  rw [he, joint_eq, joint_eq, lenPay_apply]
  show Ideal.sqrt (sumSq _ _ b r) = rowLen x0 b r k
  unfold sumSq rowLen rowVec
  refine congrArg Ideal.sqrt (Finset.sum_congr rfl fun d _ => ?_)
  rw [ld_slice x0 op inbp (by omega) b r d, ld_slice x0 oc inbc (by omega) b r d]
  subst hop hoc
  rfl

/-- The store of bone `k`'s direction is lanes `3 k … 3 k + 2` of the direction block's function. -/
theorem dir_piece (x0 : Vec Ideal S8x512x51 .f32) (k : Fin 16) (op oc oo : ℕ)
    (hop : op = 3 * (parent k).val) (hoc : oc = 3 * (child k).val) (hoo : oo = 3 * k.val)
    (inbp : ∀ a, (![0, 0, op] : Fin 3 → ℕ) a + S8x512x3.size a ≤ S8x512x51.size a)
    (inbc : ∀ a, (![0, 0, oc] : Fin 3 → ℕ) a + S8x512x3.size a ≤ S8x512x51.size a)
    (inbo : ∀ a, (![0, 0, oo] : Fin 3 → ℕ) a + S8x512x3.size a ≤ S8x512x48.size a)
    (x : S8x512x3.Idx) :
    dirPay (joint (View.ld x0 (Rect.unit (s := S8x512x51) ![0, 0, op] S8x512x3.size inbp)))
        (joint (View.ld x0 (Rect.unit (s := S8x512x51) ![0, 0, oc] S8x512x3.size inbc))) x
      = GDir x0 ((Rect.unit (s := S8x512x48) ![0, 0, oo] S8x512x3.size inbo).emb x) := by
  obtain ⟨b, r, d, rfl⟩ : ∃ (b : Fin 8) (r : Fin 512) (d : Fin 3), x = ix3 b r d := ⟨x 0, x 1, x 2, eq_ix3 x⟩
  have hpk := (parent k).isLt
  have hck := (child k).isLt
  have hk := k.isLt
  have hd := d.isLt
  have he : (Rect.unit (s := S8x512x48) ![0, 0, oo] S8x512x3.size inbo).emb (ix3 b r d)
      = ix3 b r (⟨oo + d.val, by omega⟩ : Fin 48) := by
    funext a; apply Fin.ext
    match a with
    | ⟨0, _⟩ => show 0 + 1 * b.val = b.val; omega
    | ⟨1, _⟩ => show 0 + 1 * r.val = r.val; omega
    | ⟨2, _⟩ => show oo + 1 * d.val = oo + d.val; omega
  have hb : boneOf (⟨oo + d.val, by omega⟩ : Fin 48) = k := Fin.ext (by show (oo + d.val) / 3 = k.val; omega)
  have hc : coordOf (⟨oo + d.val, by omega⟩ : Fin 48) = d := Fin.ext (by show (oo + d.val) % 3 = d.val; omega)
  rw [he, joint_eq, joint_eq, dirPay_apply]
  show _ = blkDir x0 b r (boneOf (⟨oo + d.val, _⟩ : Fin 48)) (coordOf (⟨oo + d.val, _⟩ : Fin 48))
  rw [hb, hc]
  have hv : ∀ d' : Fin 3,
      View.ld x0 (Rect.unit (s := S8x512x51) ![0, 0, oc] S8x512x3.size inbc) (ix3 b r d')
        - View.ld x0 (Rect.unit (s := S8x512x51) ![0, 0, op] S8x512x3.size inbp) (ix3 b r d') = blkVec x0 b r k d' := by
    intro d'
    show _ = rowVec x0 b r k d'
    unfold rowVec
    rw [ld_slice x0 op inbp (by omega) b r d', ld_slice x0 oc inbc (by omega) b r d']
    subst hop hoc
    rfl
  show _ = rowDir x0 b r k d
  unfold rowDir rowLen sumSq
  rw [hv d]
  refine congrArg (fun z => Ideal.div (blkVec x0 b r k d) (max (Ideal.sqrt z) _)) ?_
  exact Finset.sum_congr rfl fun d' _ => by rw [hv d']

/-- The length block after the body. -/
theorem out0_1_eq (x0 : Vec Ideal S8x512x51 .f32) : out0_1 x0 = GLen x0 := by
  funext y
  unfold out0_1
  simp only [pay1_eq, pay2_eq, pay3_eq, pay4_eq, pay5_eq, pay6_eq, pay7_eq, pay8_eq, pay9_eq, pay10_eq, pay11_eq,
    pay12_eq, pay13_eq, pay14_eq, pay15_eq, pay16_eq, pay17_eq, len0_eq, len1_eq, len2_eq, len3_eq, len4_eq, len5_eq,
    len6_eq, len7_eq, len8_eq, len9_eq, len10_eq, len11_eq, len12_eq, len13_eq, len14_eq, len15_eq]
  refine View.canon_apply_of_pieces (Val := Elt Ideal) (GLen x0) _ ?_ y (cover0_1 _ _ _ _ _ _ _ _ _ _ _ _ _ _ _ _ y)
  intro p hp
  simp only [List.mem_cons, List.mem_nil_iff, or_false] at hp
  rcases hp with rfl | rfl | rfl | rfl | rfl | rfl | rfl | rfl | rfl | rfl | rfl | rfl | rfl | rfl | rfl | rfl
  · exact len_piece x0 15 45 48 15 rfl rfl rfl inb_S8x512x51_S8x512x3_0_0_45 inb_S8x512x51_S8x512x3_0_0_48 inb_S8x512x16_S8x512x1_0_0_15
  · exact len_piece x0 14 42 45 14 rfl rfl rfl inb_S8x512x51_S8x512x3_0_0_42 inb_S8x512x51_S8x512x3_0_0_45 inb_S8x512x16_S8x512x1_0_0_14
  · exact len_piece x0 13 24 42 13 rfl rfl rfl inb_S8x512x51_S8x512x3_0_0_24 inb_S8x512x51_S8x512x3_0_0_42 inb_S8x512x16_S8x512x1_0_0_13
  · exact len_piece x0 12 36 39 12 rfl rfl rfl inb_S8x512x51_S8x512x3_0_0_36 inb_S8x512x51_S8x512x3_0_0_39 inb_S8x512x16_S8x512x1_0_0_12
  · exact len_piece x0 11 33 36 11 rfl rfl rfl inb_S8x512x51_S8x512x3_0_0_33 inb_S8x512x51_S8x512x3_0_0_36 inb_S8x512x16_S8x512x1_0_0_11
  · exact len_piece x0 10 24 33 10 rfl rfl rfl inb_S8x512x51_S8x512x3_0_0_24 inb_S8x512x51_S8x512x3_0_0_33 inb_S8x512x16_S8x512x1_0_0_10
  · exact len_piece x0 9 27 30 9 rfl rfl rfl inb_S8x512x51_S8x512x3_0_0_27 inb_S8x512x51_S8x512x3_0_0_30 inb_S8x512x16_S8x512x1_0_0_9
  · exact len_piece x0 8 24 27 8 rfl rfl rfl inb_S8x512x51_S8x512x3_0_0_24 inb_S8x512x51_S8x512x3_0_0_27 inb_S8x512x16_S8x512x1_0_0_8
  · exact len_piece x0 7 21 24 7 rfl rfl rfl inb_S8x512x51_S8x512x3_0_0_21 inb_S8x512x51_S8x512x3_0_0_24 inb_S8x512x16_S8x512x1_0_0_7
  · exact len_piece x0 6 0 21 6 rfl rfl rfl inb_S8x512x51_S8x512x3_0_0_0 inb_S8x512x51_S8x512x3_0_0_21 inb_S8x512x16_S8x512x1_0_0_6
  · exact len_piece x0 5 15 18 5 rfl rfl rfl inb_S8x512x51_S8x512x3_0_0_15 inb_S8x512x51_S8x512x3_0_0_18 inb_S8x512x16_S8x512x1_0_0_5
  · exact len_piece x0 4 12 15 4 rfl rfl rfl inb_S8x512x51_S8x512x3_0_0_12 inb_S8x512x51_S8x512x3_0_0_15 inb_S8x512x16_S8x512x1_0_0_4
  · exact len_piece x0 3 0 12 3 rfl rfl rfl inb_S8x512x51_S8x512x3_0_0_0 inb_S8x512x51_S8x512x3_0_0_12 inb_S8x512x16_S8x512x1_0_0_3
  · exact len_piece x0 2 6 9 2 rfl rfl rfl inb_S8x512x51_S8x512x3_0_0_6 inb_S8x512x51_S8x512x3_0_0_9 inb_S8x512x16_S8x512x1_0_0_2
  · exact len_piece x0 1 3 6 1 rfl rfl rfl inb_S8x512x51_S8x512x3_0_0_3 inb_S8x512x51_S8x512x3_0_0_6 inb_S8x512x16_S8x512x1_0_0_1
  · exact len_piece x0 0 0 3 0 rfl rfl rfl inb_S8x512x51_S8x512x3_0_0_0 inb_S8x512x51_S8x512x3_0_0_3 inb_S8x512x16_S8x512x1_0_0_0

/-- The direction block after the body. -/
theorem out0_2_eq (x0 : Vec Ideal S8x512x51 .f32) : out0_2 x0 = GDir x0 := by
  funext y
  unfold out0_2
  simp only [pay1_eq, pay2_eq, pay3_eq, pay4_eq, pay5_eq, pay6_eq, pay7_eq, pay8_eq, pay9_eq, pay10_eq, pay11_eq,
    pay12_eq, pay13_eq, pay14_eq, pay15_eq, pay16_eq, pay17_eq, dir0_eq, dir1_eq, dir2_eq, dir3_eq, dir4_eq, dir5_eq,
    dir6_eq, dir7_eq, dir8_eq, dir9_eq, dir10_eq, dir11_eq, dir12_eq, dir13_eq, dir14_eq, dir15_eq]
  refine View.canon_apply_of_pieces (Val := Elt Ideal) (GDir x0) _ ?_ y (cover0_2 _ _ _ _ _ _ _ _ _ _ _ _ _ _ _ _ y)
  intro p hp
  simp only [List.mem_cons, List.mem_nil_iff, or_false] at hp
  rcases hp with rfl | rfl | rfl | rfl | rfl | rfl | rfl | rfl | rfl | rfl | rfl | rfl | rfl | rfl | rfl | rfl
  · exact dir_piece x0 15 45 48 45 rfl rfl rfl inb_S8x512x51_S8x512x3_0_0_45 inb_S8x512x51_S8x512x3_0_0_48 inb_S8x512x48_S8x512x3_0_0_45
  · exact dir_piece x0 14 42 45 42 rfl rfl rfl inb_S8x512x51_S8x512x3_0_0_42 inb_S8x512x51_S8x512x3_0_0_45 inb_S8x512x48_S8x512x3_0_0_42
  · exact dir_piece x0 13 24 42 39 rfl rfl rfl inb_S8x512x51_S8x512x3_0_0_24 inb_S8x512x51_S8x512x3_0_0_42 inb_S8x512x48_S8x512x3_0_0_39
  · exact dir_piece x0 12 36 39 36 rfl rfl rfl inb_S8x512x51_S8x512x3_0_0_36 inb_S8x512x51_S8x512x3_0_0_39 inb_S8x512x48_S8x512x3_0_0_36
  · exact dir_piece x0 11 33 36 33 rfl rfl rfl inb_S8x512x51_S8x512x3_0_0_33 inb_S8x512x51_S8x512x3_0_0_36 inb_S8x512x48_S8x512x3_0_0_33
  · exact dir_piece x0 10 24 33 30 rfl rfl rfl inb_S8x512x51_S8x512x3_0_0_24 inb_S8x512x51_S8x512x3_0_0_33 inb_S8x512x48_S8x512x3_0_0_30
  · exact dir_piece x0 9 27 30 27 rfl rfl rfl inb_S8x512x51_S8x512x3_0_0_27 inb_S8x512x51_S8x512x3_0_0_30 inb_S8x512x48_S8x512x3_0_0_27
  · exact dir_piece x0 8 24 27 24 rfl rfl rfl inb_S8x512x51_S8x512x3_0_0_24 inb_S8x512x51_S8x512x3_0_0_27 inb_S8x512x48_S8x512x3_0_0_24
  · exact dir_piece x0 7 21 24 21 rfl rfl rfl inb_S8x512x51_S8x512x3_0_0_21 inb_S8x512x51_S8x512x3_0_0_24 inb_S8x512x48_S8x512x3_0_0_21
  · exact dir_piece x0 6 0 21 18 rfl rfl rfl inb_S8x512x51_S8x512x3_0_0_0 inb_S8x512x51_S8x512x3_0_0_21 inb_S8x512x48_S8x512x3_0_0_18
  · exact dir_piece x0 5 15 18 15 rfl rfl rfl inb_S8x512x51_S8x512x3_0_0_15 inb_S8x512x51_S8x512x3_0_0_18 inb_S8x512x48_S8x512x3_0_0_15
  · exact dir_piece x0 4 12 15 12 rfl rfl rfl inb_S8x512x51_S8x512x3_0_0_12 inb_S8x512x51_S8x512x3_0_0_15 inb_S8x512x48_S8x512x3_0_0_12
  · exact dir_piece x0 3 0 12 9 rfl rfl rfl inb_S8x512x51_S8x512x3_0_0_0 inb_S8x512x51_S8x512x3_0_0_12 inb_S8x512x48_S8x512x3_0_0_9
  · exact dir_piece x0 2 6 9 6 rfl rfl rfl inb_S8x512x51_S8x512x3_0_0_6 inb_S8x512x51_S8x512x3_0_0_9 inb_S8x512x48_S8x512x3_0_0_6
  · exact dir_piece x0 1 3 6 3 rfl rfl rfl inb_S8x512x51_S8x512x3_0_0_3 inb_S8x512x51_S8x512x3_0_0_6 inb_S8x512x48_S8x512x3_0_0_3
  · exact dir_piece x0 0 0 3 0 rfl rfl rfl inb_S8x512x51_S8x512x3_0_0_0 inb_S8x512x51_S8x512x3_0_0_3 inb_S8x512x48_S8x512x3_0_0_0

end Cert.KernelIdeal.Bone

end
-- ==== Proof.BoneArray.lean ====
/-
  The two output arrays after the run, as functions of the flattened pose.

  The grid is 16 × 8 points; point `(p, q)` reads rows `8 p … 8 p + 7`, `512 q … 512 q + 511` of the flattened pose
  `[128, 4096, 51]` and writes the same rows of the length array `[128, 4096, 16]` and of the direction array
  `[128, 4096, 48]`. Row `(a, b)` of a block is row `(8 p + a, 512 q + b)` of the array, so what a point writes back is
  its block of ONE function of the whole flattened pose; the blocks tile the arrays, so each array ends at that function.
-/
import proofs.«155686_j32014686224789_1_alg».proof.Proof.Gen.KernelIdeal.Frame
import proofs.«155686_j32014686224789_1_alg».proof.Proof.BoneBlock
import Idealize.ShloMosaic.Lib.Pipeline.Value

set_option maxRecDepth 16384

noncomputable section

namespace Cert.KernelIdeal.Bone

open Idealize.ShloMosaic Idealize.ShloMosaic.TcCoe Idealize.ShloMosaic.ValueIdx Idealize.SL.Sem
open Cert.KernelIdeal Cert.KernelIdeal.Gen Cert.Bones
open Idealize.ShloMosaic.Pipeline (Dat)

variable (m : (ℓ : Loc nD τ sig) → Buf (Elt Ideal) ℓ)

/-- The flattened pose as the region finds it. -/
abbrev flat (c : Dev nD) : Vec Ideal S128x4096x51 .f32 := V m c main_v0

/-- The input block at point `t`. -/
abbrev xblk (c : Dev nD) (t : Fin cfg0.N) : Vec Ideal S8x512x51 .f32 := iblk m c 0 t

/-- The length array: lane `k` of row `(a, b)` holds bone `k`'s length there. -/
def ALen (X : Vec Ideal S128x4096x51 .f32) : Vec Ideal S128x4096x16 .f32 := fun i => rowLen X (i 0) (i 1) (i 2)

/-- The direction array: lane `3 k + d` of row `(a, b)` holds bone `k`'s coordinate `d` there. -/
def ADir (X : Vec Ideal S128x4096x51 .f32) : Vec Ideal S128x4096x48 .f32 :=
  fun i => rowDir X (i 0) (i 1) (boneOf (i 2)) (coordOf (i 2))

/-- The printed index maps, decided over the grid: the three windows move together along the two row axes, never
    along the lane axis, and stay inside 16 × 8 blocks. -/
theorem idx_facts : ∀ t : Fin cfg0.N,
    win0_0.index t (0 : Fin 3) = win0_1.index t (0 : Fin 3) ∧ win0_0.index t (1 : Fin 3) = win0_1.index t (1 : Fin 3)
    ∧ win0_0.index t (2 : Fin 3) = 0
    ∧ win0_2.index t (0 : Fin 3) = win0_1.index t (0 : Fin 3) ∧ win0_2.index t (1 : Fin 3) = win0_1.index t (1 : Fin 3)
    ∧ win0_2.index t (2 : Fin 3) = 0
    ∧ win0_1.index t (0 : Fin 3) ≤ 15 ∧ win0_1.index t (1 : Fin 3) ≤ 7 ∧ win0_1.index t (2 : Fin 3) = 0 :=
  (by decide +kernel : ∀ t : Fin grid0.N, _)

/-- Every block of the 16 × 8 tiling is some point's. -/
theorem idx_onto : ∀ (q0 : Fin 16) (q1 : Fin 8), ∃ t : Fin cfg0.N, win0_1.index t = ![q0.val, q1.val, 0] :=
  (by decide +kernel : ∀ (q0 : Fin 16) (q1 : Fin 8), ∃ t : Fin grid0.N, win0_1.index t = ![q0.val, q1.val, 0])

/-- A row of the input block at point `t` is the matching row of the flattened pose. -/
theorem xblk_apply (c : Dev nD) (t : Fin cfg0.N) (a : Fin 8) (b : Fin 512) (l : Fin 51) (A : Fin 128) (B : Fin 4096)
    (hA : A.val = win0_0.index t (0 : Fin 3) * 8 + a.val) (hB : B.val = win0_0.index t (1 : Fin 3) * 512 + b.val)
    (h2 : win0_0.index t (2 : Fin 3) = 0) :
    xblk m c t (ix3 a b l) = flat m c (ix3 A B l) := by
  show V m c main_v0 (((cfg0.win 0).blk t).view.emb (ix3 a b l)) = V m c main_v0 (ix3 A B l)
  refine congrArg (V m c main_v0) (funext fun ax => Fin.ext ?_)
  match ax with
  | ⟨0, _⟩ => show win0_0.index t (0 : Fin 3) * 8 + 1 * a.val = A.val; omega
  | ⟨1, _⟩ => show win0_0.index t (1 : Fin 3) * 512 + 1 * b.val = B.val; omega
  | ⟨2, _⟩ => show win0_0.index t (2 : Fin 3) * 51 + 1 * l.val = l.val; omega

/-- So a bone's vector in a row of the block is its vector in the matching row of the pose. -/
theorem rowVec_blk (c : Dev nD) (t : Fin cfg0.N) (a : Fin 8) (b : Fin 512) (A : Fin 128) (B : Fin 4096)
    (hA : A.val = win0_0.index t (0 : Fin 3) * 8 + a.val) (hB : B.val = win0_0.index t (1 : Fin 3) * 512 + b.val)
    (h2 : win0_0.index t (2 : Fin 3) = 0) (k : Fin 16) (d : Fin 3) :
    rowVec (xblk m c t) a b k d = rowVec (flat m c) A B k d := by
  unfold rowVec
  rw [xblk_apply m c t a b _ A B hA hB h2, xblk_apply m c t a b _ A B hA hB h2]

theorem rowLen_blk (c : Dev nD) (t : Fin cfg0.N) (a : Fin 8) (b : Fin 512) (A : Fin 128) (B : Fin 4096)
    (hA : A.val = win0_0.index t (0 : Fin 3) * 8 + a.val) (hB : B.val = win0_0.index t (1 : Fin 3) * 512 + b.val)
    (h2 : win0_0.index t (2 : Fin 3) = 0) (k : Fin 16) :
    rowLen (xblk m c t) a b k = rowLen (flat m c) A B k := by
  unfold rowLen
  exact congrArg Ideal.sqrt (Finset.sum_congr rfl fun d _ => by rw [rowVec_blk m c t a b A B hA hB h2 k d])

theorem rowDir_blk (c : Dev nD) (t : Fin cfg0.N) (a : Fin 8) (b : Fin 512) (A : Fin 128) (B : Fin 4096)
    (hA : A.val = win0_0.index t (0 : Fin 3) * 8 + a.val) (hB : B.val = win0_0.index t (1 : Fin 3) * 512 + b.val)
    (h2 : win0_0.index t (2 : Fin 3) = 0) (k : Fin 16) (d : Fin 3) :
    rowDir (xblk m c t) a b k d = rowDir (flat m c) A B k d := by
  unfold rowDir
  rw [rowVec_blk m c t a b A B hA hB h2 k d, rowLen_blk m c t a b A B hA hB h2 k]

/-! ## The length array -/

/-- WHAT POINT `t` WRITES BACK to the length array is block `t` of `ALen` of the flattened pose. -/
theorem flushed1_eq (c : Dev nD) (t : Fin cfg0.N) :
    (dats m 0 c).flushed 1 t = ((cfg0.win 1).blk t).view.read (Elt Ideal) (ALen (flat m c)) := by
  show (cfg0.win 1).cut (grid0.coords t) ((dats m 0 c).after 1 t) = _
  rw [after0_1, out0_1_eq]
  obtain ⟨e0, e1, e2, f0, f1, f2, g0, g1, g2⟩ := idx_facts t
  funext j
  have hj0 : (j 0).val < 8 := (j 0).isLt
  have hj1 : (j 1).val < 512 := (j 1).isLt
  have hj2 : (j 2).val < 16 := (j 2).isLt
  have hA : win0_1.index t (0 : Fin 3) * 8 + (j 0).val < 128 := by omega
  have hB : win0_1.index t (1 : Fin 3) * 512 + (j 1).val < 4096 := by omega
  have hemb : ((cfg0.win 1).blk t).view.emb j
      = ix3 (⟨win0_1.index t (0 : Fin 3) * 8 + (j 0).val, hA⟩ : Fin 128) (⟨win0_1.index t (1 : Fin 3) * 512 + (j 1).val, hB⟩ : Fin 4096)
          (⟨(j 2).val, hj2⟩ : Fin 16) := by
    funext ax; apply Fin.ext
    match ax with
    | ⟨0, _⟩ => show win0_1.index t (0 : Fin 3) * 8 + 1 * (j 0).val = win0_1.index t (0 : Fin 3) * 8 + (j 0).val; omega
    | ⟨1, _⟩ => show win0_1.index t (1 : Fin 3) * 512 + 1 * (j 1).val = win0_1.index t (1 : Fin 3) * 512 + (j 1).val; omega
    | ⟨2, _⟩ => show win0_1.index t (2 : Fin 3) * 16 + 1 * (j 2).val = (j 2).val; omega
  show GLen (xblk m c t) j = ALen (flat m c) (((cfg0.win 1).blk t).view.emb j)
  rw [hemb]
  show rowLen (xblk m c t) (⟨(j 0).val, hj0⟩ : Fin 8) (⟨(j 1).val, hj1⟩ : Fin 512) (⟨(j 2).val, hj2⟩ : Fin 16)
    = rowLen (flat m c) (⟨win0_1.index t (0 : Fin 3) * 8 + (j 0).val, hA⟩ : Fin 128)
        (⟨win0_1.index t (1 : Fin 3) * 512 + (j 1).val, hB⟩ : Fin 4096) (⟨(j 2).val, hj2⟩ : Fin 16)
  exact rowLen_blk m c t ⟨(j 0).val, hj0⟩ ⟨(j 1).val, hj1⟩ ⟨_, hA⟩ ⟨_, hB⟩
    (by show win0_1.index t (0 : Fin 3) * 8 + (j 0).val = win0_0.index t (0 : Fin 3) * 8 + (j 0).val; omega)
    (by show win0_1.index t (1 : Fin 3) * 512 + (j 1).val = win0_0.index t (1 : Fin 3) * 512 + (j 1).val; omega) e2 _

/-- An index of the length array is in point `t`'s block iff each coordinate is in the block's range. -/
theorem mem_blk1 (t : Fin cfg0.N) (i : S128x4096x16.Idx) :
    i ∈ ((cfg0.win 1).blk t).view.set ↔ ∀ a : Fin 3, win0_1.index t a * S8x512x16.size a ≤ (i a).val
      ∧ (i a).val < win0_1.index t a * S8x512x16.size a + S8x512x16.size a := by
  show i ∈ ((View.whole main_v1_0).slice (win0_1.rect t)).set ↔ _
  rw [View.set_slice_whole, Rect.mem_set_unit]
  exact Iff.rfl

/-- Every index of the length array is in some point's block. -/
theorem cover1 (i : S128x4096x16.Idx) :
    ∃ t : Fin cfg0.N, (cfg0.win 1).flush t = true ∧ i ∈ ((cfg0.win 1).blk t).view.set := by
  have hi0 : (i 0).val < 128 := (i 0).isLt
  have hi1 : (i 1).val < 4096 := (i 1).isLt
  have hi2 : (i 2).val < 16 := (i 2).isLt
  obtain ⟨t, ht⟩ := idx_onto ⟨(i 0).val / 8, by omega⟩ ⟨(i 1).val / 512, by omega⟩
  have q0 : win0_1.index t (0 : Fin 3) = (i 0).val / 8 := congrFun ht 0
  have q1 : win0_1.index t (1 : Fin 3) = (i 1).val / 512 := congrFun ht 1
  have q2 : win0_1.index t (2 : Fin 3) = 0 := congrFun ht 2
  refine ⟨t, flush0_1 t, ?_⟩
  rw [mem_blk1]
  intro a
  match a with
  | ⟨0, _⟩ => show win0_1.index t (0 : Fin 3) * 8 ≤ (i 0).val ∧ (i 0).val < win0_1.index t (0 : Fin 3) * 8 + 8; omega
  | ⟨1, _⟩ => show win0_1.index t (1 : Fin 3) * 512 ≤ (i 1).val ∧ (i 1).val < win0_1.index t (1 : Fin 3) * 512 + 512; omega
  | ⟨2, _⟩ => show win0_1.index t (2 : Fin 3) * 16 ≤ (i 2).val ∧ (i 2).val < win0_1.index t (2 : Fin 3) * 16 + 16; omega

/-- THE LENGTH ARRAY after the run. -/
theorem final1 (c : Dev nD) : (dats m 0 c).arrAt 1 cfg0.N = ALen (flat m c) :=
  (dats m 0 c).arrAt_eq_of_cover 1 (ALen (flat m c)) (fun t _ => flushed1_eq m c t) cover1

/-! ## The direction array -/

/-- WHAT POINT `t` WRITES BACK to the direction array is block `t` of `ADir` of the flattened pose. -/
theorem flushed2_eq (c : Dev nD) (t : Fin cfg0.N) :
    (dats m 0 c).flushed 2 t = ((cfg0.win 2).blk t).view.read (Elt Ideal) (ADir (flat m c)) := by
  show (cfg0.win 2).cut (grid0.coords t) ((dats m 0 c).after 2 t) = _
  rw [after0_2, out0_2_eq]
  obtain ⟨e0, e1, e2, f0, f1, f2, g0, g1, g2⟩ := idx_facts t
  funext j
  have hj0 : (j 0).val < 8 := (j 0).isLt
  have hj1 : (j 1).val < 512 := (j 1).isLt
  have hj2 : (j 2).val < 48 := (j 2).isLt
  have hA : win0_2.index t (0 : Fin 3) * 8 + (j 0).val < 128 := by omega
  have hB : win0_2.index t (1 : Fin 3) * 512 + (j 1).val < 4096 := by omega
  have hemb : ((cfg0.win 2).blk t).view.emb j
      = ix3 (⟨win0_2.index t (0 : Fin 3) * 8 + (j 0).val, hA⟩ : Fin 128) (⟨win0_2.index t (1 : Fin 3) * 512 + (j 1).val, hB⟩ : Fin 4096)
          (⟨(j 2).val, hj2⟩ : Fin 48) := by
    funext ax; apply Fin.ext
    match ax with
    | ⟨0, _⟩ => show win0_2.index t (0 : Fin 3) * 8 + 1 * (j 0).val = win0_2.index t (0 : Fin 3) * 8 + (j 0).val; omega
    | ⟨1, _⟩ => show win0_2.index t (1 : Fin 3) * 512 + 1 * (j 1).val = win0_2.index t (1 : Fin 3) * 512 + (j 1).val; omega
    | ⟨2, _⟩ => show win0_2.index t (2 : Fin 3) * 48 + 1 * (j 2).val = (j 2).val; omega
  show GDir (xblk m c t) j = ADir (flat m c) (((cfg0.win 2).blk t).view.emb j)
  rw [hemb]
  show rowDir (xblk m c t) (⟨(j 0).val, hj0⟩ : Fin 8) (⟨(j 1).val, hj1⟩ : Fin 512) (boneOf (⟨(j 2).val, hj2⟩ : Fin 48)) (coordOf (⟨(j 2).val, hj2⟩ : Fin 48))
    = rowDir (flat m c) (⟨win0_2.index t (0 : Fin 3) * 8 + (j 0).val, hA⟩ : Fin 128)
        (⟨win0_2.index t (1 : Fin 3) * 512 + (j 1).val, hB⟩ : Fin 4096) (boneOf (⟨(j 2).val, hj2⟩ : Fin 48)) (coordOf (⟨(j 2).val, hj2⟩ : Fin 48))
  exact rowDir_blk m c t ⟨(j 0).val, hj0⟩ ⟨(j 1).val, hj1⟩ ⟨_, hA⟩ ⟨_, hB⟩
    (by show win0_2.index t (0 : Fin 3) * 8 + (j 0).val = win0_0.index t (0 : Fin 3) * 8 + (j 0).val; omega)
    (by show win0_2.index t (1 : Fin 3) * 512 + (j 1).val = win0_0.index t (1 : Fin 3) * 512 + (j 1).val; omega) e2 _ _

/-- An index of the direction array is in point `t`'s block iff each coordinate is in the block's range. -/
theorem mem_blk2 (t : Fin cfg0.N) (i : S128x4096x48.Idx) :
    i ∈ ((cfg0.win 2).blk t).view.set ↔ ∀ a : Fin 3, win0_2.index t a * S8x512x48.size a ≤ (i a).val
      ∧ (i a).val < win0_2.index t a * S8x512x48.size a + S8x512x48.size a := by
  show i ∈ ((View.whole main_v1_1).slice (win0_2.rect t)).set ↔ _
  rw [View.set_slice_whole, Rect.mem_set_unit]
  exact Iff.rfl

/-- Every index of the direction array is in some point's block. -/
theorem cover2 (i : S128x4096x48.Idx) :
    ∃ t : Fin cfg0.N, (cfg0.win 2).flush t = true ∧ i ∈ ((cfg0.win 2).blk t).view.set := by
  have hi0 : (i 0).val < 128 := (i 0).isLt
  have hi1 : (i 1).val < 4096 := (i 1).isLt
  have hi2 : (i 2).val < 48 := (i 2).isLt
  obtain ⟨t, ht⟩ := idx_onto ⟨(i 0).val / 8, by omega⟩ ⟨(i 1).val / 512, by omega⟩
  obtain ⟨e0, e1, e2, f0, f1, f2, g0, g1, g2⟩ := idx_facts t
  have q0 : win0_1.index t (0 : Fin 3) = (i 0).val / 8 := congrFun ht 0
  have q1 : win0_1.index t (1 : Fin 3) = (i 1).val / 512 := congrFun ht 1
  refine ⟨t, flush0_2 t, ?_⟩
  rw [mem_blk2]
  intro a
  match a with
  | ⟨0, _⟩ => show win0_2.index t (0 : Fin 3) * 8 ≤ (i 0).val ∧ (i 0).val < win0_2.index t (0 : Fin 3) * 8 + 8; omega
  | ⟨1, _⟩ => show win0_2.index t (1 : Fin 3) * 512 ≤ (i 1).val ∧ (i 1).val < win0_2.index t (1 : Fin 3) * 512 + 512; omega
  | ⟨2, _⟩ => show win0_2.index t (2 : Fin 3) * 48 ≤ (i 2).val ∧ (i 2).val < win0_2.index t (2 : Fin 3) * 48 + 48; omega

/-- THE DIRECTION ARRAY after the run. -/
theorem final2 (c : Dev nD) : (dats m 0 c).arrAt 2 cfg0.N = ADir (flat m c) :=
  (dats m 0 c).arrAt_eq_of_cover 2 (ADir (flat m c)) (fun t _ => flushed2_eq m c t) cover2

end Cert.KernelIdeal.Bone

end
-- ==== Proof.BoneRun.lean ====
/-
  The kernel program's run, with both results named.

  Around the region the program only re-lays arrays: the pose `[128, 4096, 17, 3]` is flattened to `[128, 4096, 51]`
  before it (joint `j`'s coordinate `d` goes to lane `3 j + d`), and after it the length array `[128, 4096, 16]` gains a
  unit axis and the direction array `[128, 4096, 48]` is split into `[128, 4096, 16, 3]` (lane `3 k + d` becomes bone `k`'s
  coordinate `d`). All three keep the row-major position, so a bone's vector in a row of the flattened pose is its
  vector in the pose, and the two results are the specification's arrays.
-/
import proofs.«155686_j32014686224789_1_alg».proof.Proof.Gen.KernelIdeal.Frame
import proofs.«155686_j32014686224789_1_alg».proof.Proof.BoneArray
import Idealize.ShloMosaic.Lib.StableHlo.Run

set_option maxRecDepth 16384

noncomputable section

namespace Cert.KernelIdeal.Bone

open Idealize.ShloMosaic Idealize.ShloMosaic.TcCoe Idealize.ShloMosaic.ValueIdx Idealize.SL.Sem Idealize.ShloMosaic.StableHlo
open Cert.KernelIdeal Cert.KernelIdeal.Gen Cert.Bones

/-! ## The three re-layings, read at an index -/

/-- The flattened pose at lane `3 j + d` of row `(a, b)` is the pose at `(a, b, j, d)`. -/
theorem flatten_apply (x : FVec Ideal S128x4096x17x3 .f32) (h : S128x4096x17x3.ShapeCasts S128x4096x51)
    (a : Fin 128) (b : Fin 4096) (j : Fin 17) (d : Fin 3) :
    shapeCast S128x4096x51 x h (ix3 a b (lane j d)) = x (ix4 a b j d) :=
  shapeCast_apply x h _ _ (by
    rw [Shape.rowMajor_val_four, Shape.rowMajor_val_three]
    show ((a.val * 4096 + b.val) * 17 + j.val) * 3 + d.val = (a.val * 4096 + b.val) * 51 + (3 * j.val + d.val)
    omega)

/-- The length array with a unit axis added reads, at `(a, b, k, u)`, the array at `(a, b, k)`. -/
theorem addUnit_apply (Y : Vec Ideal S128x4096x16 .f32) (h : S128x4096x16.ShapeCasts S128x4096x16x1)
    (a : Fin 128) (b : Fin 4096) (k : Fin 16) (u : Fin 1) :
    shapeCast S128x4096x16x1 Y h (ix4 a b k u) = Y (ix3 a b k) :=
  shapeCast_apply Y h _ _ (by
    have hu : u.val = 0 := by omega
    rw [Shape.rowMajor_val_three, Shape.rowMajor_val_four]
    show (a.val * 4096 + b.val) * 16 + k.val = ((a.val * 4096 + b.val) * 16 + k.val) * 1 + u.val
    omega)

/-- The direction array split into bones reads, at `(a, b, k, d)`, the array at lane `3 k + d` of row `(a, b)`. -/
theorem split_apply (Y : Vec Ideal S128x4096x48 .f32) (h : S128x4096x48.ShapeCasts S128x4096x16x3)
    (a : Fin 128) (b : Fin 4096) (k : Fin 16) (d : Fin 3) :
    shapeCast S128x4096x16x3 Y h (ix4 a b k d) = Y (ix3 a b (⟨3 * k.val + d.val, by omega⟩ : Fin 48)) :=
  shapeCast_apply Y h _ _ (by
    rw [Shape.rowMajor_val_three, Shape.rowMajor_val_four]
    show (a.val * 4096 + b.val) * 48 + (3 * k.val + d.val) = ((a.val * 4096 + b.val) * 16 + k.val) * 3 + d.val
    omega)

/-! ## Rows of the flattened pose are rows of the pose -/

theorem rowVec_flatten (x : FVec Ideal S128x4096x17x3 .f32) (h : S128x4096x17x3.ShapeCasts S128x4096x51)
    (a : Fin 128) (b : Fin 4096) (k : Fin 16) (d : Fin 3) :
    rowVec (shapeCast S128x4096x51 x h) a b k d = vec x a b k d := by
  unfold rowVec vec
  rw [flatten_apply, flatten_apply]

theorem rowLen_flatten (x : FVec Ideal S128x4096x17x3 .f32) (h : S128x4096x17x3.ShapeCasts S128x4096x51)
    (a : Fin 128) (b : Fin 4096) (k : Fin 16) :
    rowLen (shapeCast S128x4096x51 x h) a b k = len x a b k := by
  unfold rowLen len
  exact congrArg Ideal.sqrt (Finset.sum_congr rfl fun d _ => by rw [rowVec_flatten])

theorem rowDir_flatten (x : FVec Ideal S128x4096x17x3 .f32) (h : S128x4096x17x3.ShapeCasts S128x4096x51)
    (a : Fin 128) (b : Fin 4096) (k : Fin 16) (d : Fin 3) :
    rowDir (shapeCast S128x4096x51 x h) a b k d = dir x a b k d := by
  unfold rowDir dir
  rw [rowVec_flatten, rowLen_flatten]

/-! ## The run -/

variable (m : (ℓ : Loc nD τ sig) → Buf (Elt Ideal) ℓ) (ρ : Dev nD → PrngReg)

/-- The region finds the pose flattened. -/
theorem flat_eq (c : Dev nD) :
    flat m c = shapeCast S128x4096x51 (m ((c : Thread nD τ).loc main_arg0)) shapeCasts_S128x4096x17x3_S128x4096x51 := by
  show StableHlo.after hostOps0 (fun b => m (c, b)) (Proc.devRef .tc main_v0) = _
  after_results
  rfl

/-- The lines after the region find the length array at its function of the flattened pose. -/
theorem arr1 (c : Dev nD) :
    Pipeline.withArrays (cfgs 0).spec c (V0 m c) (fun w => (dats m 0 c).arrAt w (cfgs 0).N) (Proc.devRef .tc main_v1_0)
      = ALen (flat m c) :=
  (Pipeline.withArrays_arr spec0 launch0.win.arr_inj c _ _ 1).trans (final1 m c)

/-- And the direction array. -/
theorem arr2 (c : Dev nD) :
    Pipeline.withArrays (cfgs 0).spec c (V0 m c) (fun w => (dats m 0 c).arrAt w (cfgs 0).N) (Proc.devRef .tc main_v1_1)
      = ADir (flat m c) :=
  (Pipeline.withArrays_arr spec0 launch0.win.arr_inj c _ _ 2).trans (final2 m c)

/-- The first result is the array of bone lengths. -/
theorem res_len (c : Dev nD) :
    Pipeline.afterTail₀ cfgs (dats m) 0 (V0 m) [hostOps1] c main_v2 = boneLen (m ((c : Thread nD τ).loc main_arg0)) := by
  unfold Pipeline.afterTail₀
  show StableHlo.after hostOps1 _ (Proc.devRef .tc main_v2) = _
  after_results
  funext i
  obtain ⟨a, b, k, u, rfl⟩ : ∃ (a : Fin 128) (b : Fin 4096) (k : Fin 16) (u : Fin 1), i = ix4 a b k u :=
    ⟨i 0, i 1, i 2, i 3, eq_ix4 i⟩
  show shapeCast S128x4096x16x1 (Pipeline.withArrays (cfgs 0).spec c (V0 m c) (fun w => (dats m 0 c).arrAt w (cfgs 0).N)
    (Proc.devRef .tc main_v1_0)) shapeCasts_S128x4096x16_S128x4096x16x1 (ix4 a b k u) = _
  rw [arr1 m c, addUnit_apply, boneLen_ix4]
  show rowLen (flat m c) a b k = _
  rw [flat_eq m c]
  exact rowLen_flatten _ _ a b k

/-- The second result is the array of bone directions. -/
theorem res_dir (c : Dev nD) :
    Pipeline.afterTail₀ cfgs (dats m) 0 (V0 m) [hostOps1] c main_v3 = boneDir (m ((c : Thread nD τ).loc main_arg0)) := by
  unfold Pipeline.afterTail₀
  show StableHlo.after hostOps1 _ (Proc.devRef .tc main_v3) = _
  after_results
  funext i
  obtain ⟨a, b, k, d, rfl⟩ : ∃ (a : Fin 128) (b : Fin 4096) (k : Fin 16) (d : Fin 3), i = ix4 a b k d :=
    ⟨i 0, i 1, i 2, i 3, eq_ix4 i⟩
  show shapeCast S128x4096x16x3 (Pipeline.withArrays (cfgs 0).spec c (V0 m c) (fun w => (dats m 0 c).arrAt w (cfgs 0).N)
    (Proc.devRef .tc main_v1_1)) shapeCasts_S128x4096x48_S128x4096x16x3 (ix4 a b k d) = _
  rw [arr2 m c, split_apply, boneDir_ix4]
  have hk := k.isLt
  have hd := d.isLt
  have hb : boneOf (⟨3 * k.val + d.val, by omega⟩ : Fin 48) = k := Fin.ext (by show (3 * k.val + d.val) / 3 = k.val; omega)
  have hc : coordOf (⟨3 * k.val + d.val, by omega⟩ : Fin 48) = d := Fin.ext (by show (3 * k.val + d.val) % 3 = d.val; omega)
  show rowDir (flat m c) a b (boneOf (⟨3 * k.val + d.val, _⟩ : Fin 48)) (coordOf (⟨3 * k.val + d.val, _⟩ : Fin 48)) = _
  rw [hb, hc, flat_eq m c]
  exact rowDir_flatten _ _ a b k d

/-- Every weakly fair execution of the kernel program terminates with the two results at the specification's arrays of
    the launched pose, and the pose unchanged. -/
theorem run : θ_run (defs (F := Ideal)) (onTc (τ := τ) (main (F := Ideal))) ⟨m, fun _ => 0, ρ⟩ fun r => ∀ c : Dev nD,
      r.2.mem ((c.tc : Thread nD τ).loc main_v2) = boneLen (m ((c.tc : Thread nD τ).loc main_arg0))
      ∧ r.2.mem ((c.tc : Thread nD τ).loc main_v3) = boneDir (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (res_len m c),
       ((h c).2 main_v3 (Pipeline.mem_restRefs_of main_v3 (by decide) (by decide))).trans (res_dir m c),
       ((h c).2 main_arg0 (Pipeline.mem_restRefs_of main_arg0 (by decide) (by decide))).trans (W_main_arg0 m (dats m) c)⟩)
    (run_main m ρ)

end Cert.KernelIdeal.Bone

end
-- ==== Proof.RefRun.lean ====
/-
  The reference program as a straight line of host operations, and what its run leaves in memory.

  The program slices the child joints out of the pose array, builds the table of parent joints (the constant
  table, with the usual wrap of negative entries by the joint count), gathers the parent joints along the joint
  axis, subtracts, and then computes the Euclidean norm of each bone vector (the outlined norm: square, sum over
  the coordinate axis, keep the axis as a column, square root), floors the norm by a small constant and divides
  the bone vector by the floored norm.  Here the outlined norm is listed at its call site, so the whole program
  is one list of operations; every weakly fair execution then ends with each buffer holding the operations'
  composed value of the pose array, which is named below (`table`, `vecT`, `lenT`, `dirT`).
-/
import proofs.«155686_j32014686224789_1_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The constant table of parent joints, one 32-bit word per bone. -/
def tab0 : IVec S16 32 := fun i => lit0 (S16.rowMajor i)

/-- The table as the gather reads it: an entry below zero is moved up by the joint count (none is), and the
    entries are laid out as a column of one-component start indices. -/
def table : IVec S16x1 32 :=
  broadcastInDim S16x1 ![0] bcast_S16_S16x1_0
    (select (cmpi .slt tab0 (broadcastInDim S16 ![] bcast_S_S16 (constantI S_ 32 0#32)))
      (addi tab0 (broadcastInDim S16 ![] bcast_S_S16 (constantI S_ 32 17#32))) tab0)

/-- The bone vectors: the child joints (a slice along the joint axis) minus the gathered parent joints. -/
def vecT (x : FVec F S128x4096x17x3 .f32) : FVec F S128x4096x16x3 .f32 :=
  subf (extractStridedSlice S128x4096x16x3 ![0, 0, 1, 0] x slices_S128x4096x17x3_S128x4096x16x3_0_0_1_0)
    (Host.gather gather_S128x4096x17x3_S16x1_S128x4096x16x3_013_2_n_n_2_1_128409613 x table)

/-- The bone lengths, as a column: the root of the sum of squares over the coordinate axis. -/
def lenT (x : FVec F S128x4096x17x3 .f32) : FVec F S128x4096x16x1 .f32 :=
  Host.sqrt (broadcastInDim S128x4096x16x1 ![0, 1, 2] bcast_S128x4096x16_S128x4096x16x1_0_1_2
    (Host.reduceAdd (mulf (vecT x) (vecT x)) (constant S_ .f32 0x00000000#32)
      reducesTo_S128x4096x16x3_S128x4096x16_d3 h_S_))

/-- The bone directions: the vector over the floored length, the column spread along the coordinate axis. -/
def dirT (x : FVec F S128x4096x17x3 .f32) : FVec F S128x4096x16x3 .f32 :=
  Host.divf (vecT x)
    (broadcastInDim S128x4096x16x3 ![0, 1, 2, 3] bcast_S128x4096x16x1_S128x4096x16x3_0_1_2_3
      (maximumf (lenT x)
        (broadcastInDim S128x4096x16x1 ![] bcast_S_S128x4096x16x1 (constant S_ .f32 0x2B8CBCCC#32))))

/-- The program's operations in order, the outlined norm's five listed where it is called. -/
abbrev ops : List (HloOp τ sig (Elt F)) :=
  [ nullary main_c (fun i => lit0 (S16.rowMajor i)),
    unary main_arg0 main_v0 ((extractStridedSlice S128x4096x16x3 ![0, 0, 1, 0] · slices_S128x4096x17x3_S128x4096x16x3_0_0_1_0) : (⟨S128x4096x17x3, .f32⟩ : BufTy).Contents (Elt F) → (⟨S128x4096x16x3, .f32⟩ : BufTy).Contents (Elt F)),
    nullary main_c_0 (constantI S_ 32 0#32),
    unary main_c_0 main_v1 (broadcastInDim S16 ![] bcast_S_S16 : (⟨S_, .i32⟩ : BufTy).Contents (Elt F) → (⟨S16, .i32⟩ : BufTy).Contents (Elt F)),
    binary main_c main_v1 main_v2 (cmpi .slt : (⟨S16, .i32⟩ : BufTy).Contents (Elt F) → (⟨S16, .i32⟩ : BufTy).Contents (Elt F) → (⟨S16, .i1⟩ : BufTy).Contents (Elt F)),
    nullary main_c_1 (constantI S_ 32 17#32),
    unary main_c_1 main_v3 (broadcastInDim S16 ![] bcast_S_S16 : (⟨S_, .i32⟩ : BufTy).Contents (Elt F) → (⟨S16, .i32⟩ : BufTy).Contents (Elt F)),
    binary main_c main_v3 main_v4 (addi : (⟨S16, .i32⟩ : BufTy).Contents (Elt F) → (⟨S16, .i32⟩ : BufTy).Contents (Elt F) → (⟨S16, .i32⟩ : BufTy).Contents (Elt F)),
    ternary main_v2 main_v4 main_c main_v5 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_v5 main_v6 (broadcastInDim S16x1 ![0] bcast_S16_S16x1_0 : (⟨S16, .i32⟩ : BufTy).Contents (Elt F) → (⟨S16x1, .i32⟩ : BufTy).Contents (Elt F)),
    binary main_arg0 main_v6 main_v7 ((fun x i => Host.gather gather_S128x4096x17x3_S16x1_S128x4096x16x3_013_2_n_n_2_1_128409613 x i) : (⟨S128x4096x17x3, .f32⟩ : BufTy).Contents (Elt F) → (⟨S16x1, .i32⟩ : BufTy).Contents (Elt F) → (⟨S128x4096x16x3, .f32⟩ : BufTy).Contents (Elt F)),
    binary main_v0 main_v7 main_v8 (subf : (⟨S128x4096x16x3, .f32⟩ : BufTy).Contents (Elt F) → (⟨S128x4096x16x3, .f32⟩ : BufTy).Contents (Elt F) → (⟨S128x4096x16x3, .f32⟩ : BufTy).Contents (Elt F)),
    TRef.binary (.of main_v8) (.of main_v8) main_call0.v0 mulf,
    TRef.nullary main_call0.cst (constant S_ .f32 0x00000000#32),
    TRef.binary main_call0.v0 main_call0.cst main_call0.v1 (fun x v => Host.reduceAdd x v reducesTo_S128x4096x16x3_S128x4096x16_d3 h_S_),
    TRef.unary main_call0.v1 main_call0.v2 (broadcastInDim S128x4096x16x1 ![0, 1, 2] bcast_S128x4096x16_S128x4096x16x1_0_1_2),
    TRef.unary main_call0.v2 main_call0.v3 Host.sqrt,
    nullary main_cst (constant S_ .f32 0x2B8CBCCC#32),
    unary main_cst main_v10 (broadcastInDim S128x4096x16x1 ![] bcast_S_S128x4096x16x1 : (⟨S_, .f32⟩ : BufTy).Contents (Elt F) → (⟨S128x4096x16x1, .f32⟩ : BufTy).Contents (Elt F)),
    binary main_v9 main_v10 main_v11 (maximumf : (⟨S128x4096x16x1, .f32⟩ : BufTy).Contents (Elt F) → (⟨S128x4096x16x1, .f32⟩ : BufTy).Contents (Elt F) → (⟨S128x4096x16x1, .f32⟩ : BufTy).Contents (Elt F)),
    unary main_v11 main_v12 (broadcastInDim S128x4096x16x3 ![0, 1, 2, 3] bcast_S128x4096x16x1_S128x4096x16x3_0_1_2_3 : (⟨S128x4096x16x1, .f32⟩ : BufTy).Contents (Elt F) → (⟨S128x4096x16x3, .f32⟩ : BufTy).Contents (Elt F)),
    binary main_v8 main_v12 main_v13 (Host.divf : (⟨S128x4096x16x3, .f32⟩ : BufTy).Contents (Elt F) → (⟨S128x4096x16x3, .f32⟩ : BufTy).Contents (Elt F) → (⟨S128x4096x16x3, .f32⟩ : BufTy).Contents (Elt F)) ]

set_option maxRecDepth 1024 in
/-- The program is that straight line: the norm's body unfolded at its call, the sequencing reassociated. -/
theorem main_eq (c : Dev nD) : main (F := F) c = seq ops := by
  simp only [main, fn_norm.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., unary_bufs_sub .., binary_bufs_sub ..,
    nullary_bufs_sub .., unary_bufs_sub .., binary_bufs_sub .., ternary_bufs_sub .., unary_bufs_sub ..,
    binary_bufs_sub .., binary_bufs_sub .., binary_bufs_sub .., nullary_bufs_sub .., binary_bufs_sub ..,
    unary_bufs_sub .., unary_bufs_sub .., nullary_bufs_sub .., unary_bufs_sub .., binary_bufs_sub ..,
    unary_bufs_sub .., binary_bufs_sub ..⟩

attribute [local irreducible] Host.gather Host.reduceAdd in
/-- The length buffer after the line: the composed value of the pose array. -/
theorem len_eq (V : Valuation τ sig (Elt F)) :
    after ops V (Proc.devRef .tc main_v9) = lenT (V (Proc.devRef .tc main_arg0)) := by
  after_results
  rfl

attribute [local irreducible] Host.gather Host.reduceAdd in
/-- The direction buffer after the line: the composed value of the pose array. -/
theorem dir_eq (V : Valuation τ sig (Elt F)) :
    after ops V (Proc.devRef .tc main_v13) = dirT (V (Proc.devRef .tc main_arg0)) := by
  after_results
  rfl

/-- No operation writes the pose array. -/
theorem arg_eq (V : Valuation τ sig (Elt F)) :
    after ops V (Proc.devRef .tc main_arg0) = V (Proc.devRef .tc main_arg0) := by
  after_results

/-- On every device, from any memory with zero counters: every weakly fair execution of the program terminates with
    the length and direction buffers at the composed values of the pose array, which is unchanged. -/
theorem run_terms (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9) = lenT (m ((c.tc : Thread nD τ).loc main_arg0))
      ∧ r.2.mem ((c.tc : Thread nD τ).loc main_v13) = dirT (m ((c.tc : Thread nD τ).loc main_arg0))
      ∧ r.2.mem ((c.tc : Thread nD τ).loc main_arg0) = m ((c.tc : Thread nD τ).loc main_arg0) :=
  (θ_run defs _ _).mono (fun _ h c => ⟨(h c main_v9).trans (len_eq _),
      (h c main_v13).trans (dir_eq _),
      (h c main_arg0).trans (arg_eq _)⟩)
    (run_seq scopedRefs_eq scopedSems_eq defs main (fun _ => ops) main_eq (fun _ => ops_sub) m ρ)

end Cert.RefSide

end
-- ==== Proof.RefRead.lean ====
/-
  The reference's composed values read at an index.

  Each operation of the straight line is read at an index built from its four coordinates (batch, frame, bone,
  coordinate).  The slice reads child joint k + 1.  The gather along the joint axis reads, on that axis, the
  start index of bone k taken as a signed number and clamped into the joint range, and on the other axes the
  result's own coordinate; the start index of bone k is the table's entry, which is the parent joint of bone k
  (decided over the sixteen bones), and the clamp changes nothing since a parent joint is at most 16.  The sum
  over the coordinate axis from a zero initial value is the plain sum of three terms; the column and the spread
  broadcasts read the bone's one entry; root, maximum and quotient are the exact ones on the extended reals.
  So the two composed values are the specification's bone lengths and bone directions.
-/
import proofs.«155686_j32014686224789_1_alg».proof.Proof.RefRun
import proofs.«155686_j32014686224789_1_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

open scoped BigOperators

namespace Cert.RefSide

open Cert.ReferenceIdeal Cert.ReferenceIdeal.Gen Idealize.ShloMosaic Idealize.ShloMosaic.ValueIdx

/-! ## The gather along the joint axis -/

section Gather
variable {α : Type}

/-- The gather's dimension numbers: the joint axis is collapsed and indexed, the other three are offset axes. -/
abbrev G := gather_S128x4096x17x3_S16x1_S128x4096x16x3_013_2_n_n_2_1_128409613

/-- The joint the gather reads for bone `k`: the start index read as a signed number, clamped into the joint range. -/
def joint (idx : IVec S16x1 32) (k : Fin 16) : Fin 17 :=
  ⟨min (idx (ix2 k (0 : Fin 1))).toInt.toNat 16, by omega⟩

/-- Off the joint axis no start index applies. -/
theorem start0 (idx : IVec S16x1 32) (j : S128x4096x16x3.Idx) : G.start j idx 0 = 0 := by
  unfold GatherDims.start; rw [dif_neg (by decide)]
theorem start1 (idx : IVec S16x1 32) (j : S128x4096x16x3.Idx) : G.start j idx 1 = 0 := by
  unfold GatherDims.start; rw [dif_neg (by decide)]
theorem start3 (idx : IVec S16x1 32) (j : S128x4096x16x3.Idx) : G.start j idx 3 = 0 := by
  unfold GatherDims.start; rw [dif_neg (by decide)]

/-- The offset axes carry the result's own coordinates; the collapsed joint axis carries none. -/
theorem off0 (j : S128x4096x16x3.Idx) : G.offCoord j 0 = (j 0).val := by
  unfold GatherDims.offCoord; rw [dif_pos (by decide)]; rfl
theorem off1 (j : S128x4096x16x3.Idx) : G.offCoord j 1 = (j 1).val := by
  unfold GatherDims.offCoord; rw [dif_pos (by decide)]; rfl
theorem off2 (j : S128x4096x16x3.Idx) : G.offCoord j 2 = 0 := by
  unfold GatherDims.offCoord; rw [dif_neg (by decide)]
theorem off3 (j : S128x4096x16x3.Idx) : G.offCoord j 3 = (j 3).val := by
  unfold GatherDims.offCoord; rw [dif_pos (by decide)]; rfl

/-- On the joint axis the start is bone `k`'s start index, clamped. -/
theorem start2 (idx : IVec S16x1 32) (b : Fin 128) (n : Fin 4096) (k : Fin 16) (d : Fin 3) :
    G.start (ix4 b n k d) idx 2 = (joint idx k).val := by
  unfold GatherDims.start
  rw [dif_pos (show (2 : Fin 4) ∈ G.startIndexMap by decide)]
  have hsi : G.siIdx (ix4 b n k d) ⟨List.idxOf (2 : Fin 4) G.startIndexMap,
      List.idxOf_lt_length_iff.2 (show (2 : Fin 4) ∈ G.startIndexMap by decide)⟩ = ix2 k (0 : Fin 1) := by
    funext a; refine Fin.ext ?_
    match a with
    | ⟨0, _⟩ => rfl
    | ⟨1, _⟩ => rfl
  rw [hsi]
  rfl

/-- The gather at (b, n, k, d) is the operand at (b, n, joint k, d). -/
theorem gather_apply (x : S128x4096x17x3.Idx → α) (idx : IVec S16x1 32)
    (b : Fin 128) (n : Fin 4096) (k : Fin 16) (d : Fin 3) :
    Host.gather G x idx (ix4 b n k d) = x (ix4 b n (joint idx k) d) := by
  unfold Host.gather
  congr 1
  funext a
  refine Fin.ext ?_
  have hb : ∀ a, G.batchCoord (ix4 b n k d) a = 0 := fun a => GatherDims.batchCoord_eq_zero _ _ _ List.not_mem_nil
  match a with
  | ⟨0, _⟩ =>
    show G.start (ix4 b n k d) idx 0 + G.batchCoord (ix4 b n k d) 0 + G.offCoord (ix4 b n k d) 0 = b.val
    rw [start0, hb, off0]; show 0 + 0 + b.val = b.val; omega
  | ⟨1, _⟩ =>
    show G.start (ix4 b n k d) idx 1 + G.batchCoord (ix4 b n k d) 1 + G.offCoord (ix4 b n k d) 1 = n.val
    rw [start1, hb, off1]; show 0 + 0 + n.val = n.val; omega
  | ⟨2, _⟩ =>
    show G.start (ix4 b n k d) idx 2 + G.batchCoord (ix4 b n k d) 2 + G.offCoord (ix4 b n k d) 2 = (joint idx k).val
    rw [start2, hb, off2]; omega
  | ⟨3, _⟩ =>
    show G.start (ix4 b n k d) idx 3 + G.batchCoord (ix4 b n k d) 3 + G.offCoord (ix4 b n k d) 3 = d.val
    rw [start3, hb, off3]; show 0 + 0 + d.val = d.val; omega

end Gather

/-- The table's entry for bone `k`, read signed and clamped, is the parent joint of bone `k`: sixteen cases. -/
theorem joint_table : ∀ k : Fin 16, joint table k = Cert.Bones.parent k := by decide

/-! ## The layout operations at an index -/

section Layout
variable {α : Type}

/-- A value per bone kept as a column reads the bone's value. -/
theorem column_apply (R : S128x4096x16.Idx → α) (b : Fin 128) (n : Fin 4096) (k : Fin 16) (u : Fin 1) :
    broadcastInDim S128x4096x16x1 ![0, 1, 2] bcast_S128x4096x16_S128x4096x16x1_0_1_2 R (ix4 b n k u) = R (ix3 b n k) :=
  broadcastInDim_apply _ _ _ _ _ (fun a => by
    match a with
    | ⟨0, _⟩ => rfl
    | ⟨1, _⟩ => rfl
    | ⟨2, _⟩ => rfl)

/-- A column spread along the coordinate axis reads the column's one entry. -/
theorem spread_apply (M : S128x4096x16x1.Idx → α) (b : Fin 128) (n : Fin 4096) (k : Fin 16) (d : Fin 3) :
    broadcastInDim S128x4096x16x3 ![0, 1, 2, 3] bcast_S128x4096x16x1_S128x4096x16x3_0_1_2_3 M (ix4 b n k d)
      = M (ix4 b n k (0 : Fin 1)) :=
  broadcastInDim_apply _ _ _ _ _ (fun a => by
    match a with
    | ⟨0, _⟩ => rfl
    | ⟨1, _⟩ => rfl
    | ⟨2, _⟩ => rfl
    | ⟨3, _⟩ => rfl)

end Layout

/-! ## The bone vector -/

/-- The composed bone vector at (b, n, k, d): child joint minus parent joint. -/
theorem vecT_apply (x : FVec Ideal S128x4096x17x3 .f32) (b : Fin 128) (n : Fin 4096) (k : Fin 16) (d : Fin 3) :
    vecT x (ix4 b n k d) = Cert.Bones.vec x b n k d := by
  unfold vecT Cert.Bones.vec
  rw [subf_apply, gather_apply, joint_table,
    slice4_axis2_apply 1 x _ b n k d (Cert.Bones.child k) (by unfold Cert.Bones.child; rw [Fin.val_succ]; omega)]

/-! ## The sum of squares over the coordinate axis -/

/-- The coordinate axis is the one the sum drops. -/
theorem reduces3 : Shape.Reduces S128x4096x16x3 [3] S128x4096x16 := by decide

/-- The index (b, n, k) with coordinate `d` put back on the dropped axis. -/
theorem lift_ix (b : Fin 128) (n : Fin 4096) (k : Fin 16) (d : Fin 3) :
    reduces3.lift (ix3 b n k) d = ix4 b n k d := by
  funext c; refine Fin.ext ?_
  match c with
  | ⟨0, _⟩ => rfl
  | ⟨1, _⟩ => rfl
  | ⟨2, _⟩ => rfl
  | ⟨3, _⟩ => rfl

/-- The host sum from a zero initial value, at (b, n, k): the three terms' sum. -/
theorem sum3_apply (w : FVec Ideal S128x4096x16x3 .f32) (b : Fin 128) (n : Fin 4096) (k : Fin 16) :
    Host.reduceAdd w (constant (F := Ideal) S_ .f32 0x00000000#32) reducesTo_S128x4096x16x3_S128x4096x16_d3 h_S_ (ix3 b n k)
      = ∑ d : Fin 3, w (ix4 b n k d) := by
  rw [hostReduceAdd_apply, Ideal.hostReduceAdd_single _ reduces3, constant_apply, Ideal.ofBits_zero_f32, zero_add]
  show ∑ d : Fin 3, w (reduces3.lift (ix3 b n k) d) = _
  simp only [lift_ix]

/-! ## Lengths and directions -/

/-- The composed length at (b, n, k, ·): the specification's bone length. -/
theorem lenT_apply (x : FVec Ideal S128x4096x17x3 .f32) (b : Fin 128) (n : Fin 4096) (k : Fin 16) (u : Fin 1) :
    lenT x (ix4 b n k u) = Cert.Bones.len x b n k := by
  unfold lenT Cert.Bones.len
  show Ideal.sqrt (broadcastInDim S128x4096x16x1 ![0, 1, 2] bcast_S128x4096x16_S128x4096x16x1_0_1_2
    (Host.reduceAdd (mulf (vecT x) (vecT x)) (constant (F := Ideal) S_ .f32 0x00000000#32)
      reducesTo_S128x4096x16x3_S128x4096x16_d3 h_S_) (ix4 b n k u)) = _
  rw [column_apply, sum3_apply]
  simp only [mulf_apply, vecT_apply]

/-- The composed direction at (b, n, k, d): the specification's bone direction. -/
theorem dirT_apply (x : FVec Ideal S128x4096x17x3 .f32) (b : Fin 128) (n : Fin 4096) (k : Fin 16) (d : Fin 3) :
    dirT x (ix4 b n k d) = Cert.Bones.dir x b n k d := by
  unfold dirT Cert.Bones.dir
  rw [hostDivf_apply, spread_apply, maximumf_apply, broadcastInDim_scalar_apply, constant_apply, lenT_apply, vecT_apply]
  rfl

/-- The composed length array is the specification's. -/
theorem lenT_eq (x : FVec Ideal S128x4096x17x3 .f32) : lenT x = Cert.Bones.boneLen x := by
  funext j
  rw [eq_ix4 j]
  exact (lenT_apply x _ _ _ _).trans (Cert.Bones.boneLen_ix4 x _ _ _ _).symm

/-- The composed direction array is the specification's. -/
theorem dirT_eq (x : FVec Ideal S128x4096x17x3 .f32) : dirT x = Cert.Bones.boneDir x := by
  funext j
  rw [eq_ix4 j]
  exact (dirT_apply x _ _ _ _).trans (Cert.Bones.boneDir_ix4 x _ _ _ _).symm

end Cert.RefSide

end
-- ==== Proof.RefValue.lean ====
/-
  The reference's run against the specification.

  The run of the straight line leaves the length and direction buffers at the operations' composed values of the
  pose array; read at every index those are the specification's bone lengths and bone directions.  So on the
  extended reals every weakly fair execution of the reference ends with exactly those two arrays, the pose array
  unchanged.
-/
import proofs.«155686_j32014686224789_1_alg».proof.Proof.RefRead

noncomputable section

namespace Cert.RefSide

open Cert.ReferenceIdeal.Gen

open Idealize.ShloMosaic Idealize.ShloMosaic.TcCoe Idealize.SL.Sem Cert.ReferenceIdeal in
/-- On every device, from any memory with zero counters, read on the extended reals: every weakly fair execution of the
    reference terminates with the length buffer at the specification's bone lengths of the pose array, the direction
    buffer at its bone directions, and the pose array unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v9) = Cert.Bones.boneLen (m ((c.tc : Thread nD τ).loc main_arg0))
      ∧ r.2.mem ((c.tc : Thread nD τ).loc main_v13) = Cert.Bones.boneDir (m ((c.tc : Thread nD τ).loc main_arg0))
      ∧ r.2.mem ((c.tc : Thread nD τ).loc main_arg0) = m ((c.tc : Thread nD τ).loc main_arg0) :=
  (θ_run (defs (F := Ideal)) _ _).mono
    (fun _ h c => ⟨(h c).1.trans (lenT_eq _), (h c).2.1.trans (dirT_eq _), (h c).2.2⟩)
    (run_terms (F := Ideal) m ρ)

end Cert.RefSide

end
-- ==== Proof.lean ====
/-
  Bone lengths and directions of a 17-joint pose: the tiled kernel against the array program.

  For a pose x[b, n, j, d] (128 × 4096 frames, 17 joints, 3 coordinates) and the skeleton's parent table, bone k joins
  joint k + 1 to its parent: v = x[·, ·, k + 1, ·] − x[·, ·, parent k, ·], its length is √(Σ_d v_d²) and its direction
  v / max(length, ε), with ε the same binary32 constant in both programs (Proof/Spec.lean states this once, on the
  extended reals).

  The kernel program flattens the last two axes (joint j's coordinate d to lane 3 j + d), tiles the 128 × 4096 rows in
  8 × 512 blocks, and for each bone subtracts two three-lane slices of the block, squares, sums the three lanes, takes
  the root, floors it by ε and divides; it stores bone k's length in lane k of one output block and its direction in
  lanes 3 k … 3 k + 2 of the other, and re-lays the two arrays afterwards. Every store is the matching lanes of one
  function of the block (Proof/BonePay.lean, Proof/BoneBlock.lean), every point writes back its block of one function
  of the flattened pose and the blocks tile the arrays (Proof/BoneArray.lean), and the re-layings keep the row-major
  position (Proof/BoneRun.lean). The array program slices the child joints, gathers the parent joints by the constant
  table, and applies the same arithmetic with a norm outlined as a function (Proof/RefRun.lean, Proof/RefRead.lean,
  Proof/RefValue.lean). Both end at the specification's two arrays, so they agree; no law of the extended reals beyond
  reading each operation at an index is needed, and finiteness of the input is never used. The ideal pass rewrote
  nothing, so the idealization claim is trivial. The frames of the two kernel programs are the generated ones; the
  array program's frame is its run with the results dropped.
-/
import proofs.«155686_j32014686224789_1_alg».proof.Defs
import proofs.«155686_j32014686224789_1_alg».proof.Proof.Gen.Kernel
import proofs.«155686_j32014686224789_1_alg».proof.Proof.Gen.Kernel.Frame
import proofs.«155686_j32014686224789_1_alg».proof.Proof.Gen.KernelIdeal
import proofs.«155686_j32014686224789_1_alg».proof.Proof.Gen.KernelIdeal.Frame
import proofs.«155686_j32014686224789_1_alg».proof.Proof.Gen.ReferenceIdeal
import proofs.«155686_j32014686224789_1_alg».proof.Proof.Gen.Pre_finite_inputs
import proofs.«155686_j32014686224789_1_alg».proof.Proof.BoneRun
import proofs.«155686_j32014686224789_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and keeps its argument: the generated frame. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The array program's frame is its run with the two results dropped. -/
theorem frame_reference : Cert.frame_ReferenceIdeal := fun m ρ _ =>
  (θ_run Cert.ReferenceIdeal.defs _ _).mono (fun _ h c => (h c).2.2) (Cert.RefSide.run m ρ)

/-- The ideal pass rewrote no operation. -/
theorem preserves : Cert.preserves_Kernel_KernelIdeal := trivial

/-- From memories that agree on the pose, both programs end with the bone lengths and the bone directions of that
    pose: the specification's two arrays, on both sides. -/
theorem algebraic : Cert.algebraic_KernelIdeal_ReferenceIdeal := by
  intro m ρ m' ρ' _ hagree
  refine ⟨fun c => Cert.Bones.boneLen (m ((c.tc : Thread Cert.KernelIdeal.nD Cert.KernelIdeal.τ).loc Cert.KernelIdeal.main_arg0)),
    fun c => Cert.Bones.boneDir (m ((c.tc : Thread Cert.KernelIdeal.nD Cert.KernelIdeal.τ).loc Cert.KernelIdeal.main_arg0)),
    Cert.KernelIdeal.Bone.run m ρ, ?_⟩
  refine (θ_run Cert.ReferenceIdeal.defs _ _).mono
    (fun _ h c => ⟨(h c).1.trans ?_, (h c).2.1.trans ?_, (h c).2.2⟩) (Cert.RefSide.run m' ρ')
  · show Cert.Bones.boneLen _ = Cert.Bones.boneLen _
    rw [hagree c]
  · show Cert.Bones.boneDir _ = Cert.Bones.boneDir _
    rw [hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
